-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S16384x512 : Shape := ⟨2, ![16384, 512]⟩
abbrev S1000x512 : Shape := ⟨2, ![1000, 512]⟩
abbrev S16384 : Shape := ⟨1, ![16384]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S1000x512 : S_.BroadcastsInDim S1000x512 (![] : Fin 0 → Fin S1000x512.rank)
  reducesTo_S1000x512_S_d0_1 : S1000x512.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg3 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .slt main_arg3 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  main_v20

def fn {F : FTy → Type} [FloatOps F] (main_arg0 : FVec F S16384x1000 .f32) (main_arg1 : FVec F S16384x512 .f32) (main_arg2 : FVec F S1000x512 .f32) (main_arg3 : IVec S16384 32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S1000x512 .f32 := Host.absf main_arg2
  let main_cst_2 : FVec F S_ .f32 := constant S_ .f32 0x7F800000#32
  let main_v10 : FVec F S1000x512 .f32 := broadcastInDim S1000x512 ![] bcast_S_S1000x512 main_cst_2
  let main_v11 : IVec S1000x512 1 := cmpf .olt main_v9 main_v10
  let main_c_3 : IVec S_ 1 := constantI S_ 1 1#1
  let main_v12 : IVec S_ 1 := (fun x v => Host.reduce IntOp.andi x v reducesTo_S1000x512_S_d0_1 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg3 main_v14
  let main_c_5 : IVec S_ 32 := constantI S_ 32 1000#32
  fn_part1 (F := F) main_arg3 main_v13 main_v15 main_c_5
-- ==== Kernel.lean ====
abbrev S16384x1000 : Shape := ⟨2, ![16384, 1000]⟩
abbrev S16384x512 : Shape := ⟨2, ![16384, 512]⟩
abbrev S1000x512 : Shape := ⟨2, ![1000, 512]⟩
abbrev S16384 : Shape := ⟨1, ![16384]⟩
abbrev S_ : Shape := ⟨0, ![]⟩
abbrev S16384x1 : Shape := ⟨2, ![16384, 1]⟩
abbrev S16x128 : Shape := ⟨2, ![16, 128]⟩
abbrev S1024x1000 : Shape := ⟨2, ![1024, 1000]⟩
abbrev S1024x512 : Shape := ⟨2, ![1024, 512]⟩
abbrev S1024x1 : Shape := ⟨2, ![1024, 1]⟩
abbrev S8x128 : Shape := ⟨2, ![8, 128]⟩
abbrev S1x1 : Shape := ⟨2, ![1, 1]⟩
abbrev S1024 : Shape := ⟨1, ![1024]⟩
abbrev S1 : Shape := ⟨1, ![1]⟩

abbrev nBuf : Space → Nat
  | .hbm => 38
  | .vmem => 11
  | .smem => 0
  | _ => 0

abbrev bufTy : (tb : Table) → Fin (tcTables nBuf tb) → BufTy
  | .hbm, ⟨0, _⟩ => ⟨S16384x1000, .f32⟩
  | .hbm, ⟨1, _⟩ => ⟨S16384x512, .f32⟩
  | .hbm, ⟨2, _⟩ => ⟨S1000x512, .f32⟩
  | .hbm, ⟨3, _⟩ => ⟨S16384, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1000x512, .bf16⟩
  | .hbm, ⟨14, _⟩ => ⟨S16x128, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x512, .f32⟩
  | .local _ .vmem, ⟨3, _⟩ => ⟨S1024x512, .f32⟩
  | .local _ .vmem, ⟨4, _⟩ => ⟨S1000x512, .bf16⟩
  | .local _ .vmem, ⟨5, _⟩ => ⟨S1024x1, .i32⟩
  | .local _ .vmem, ⟨6, _⟩ => ⟨S1024x1, .i32⟩
  | .local _ .vmem, ⟨7, _⟩ => ⟨S8x128, .f32⟩
  | .local _ .vmem, ⟨8, _⟩ => ⟨S8x128, .f32⟩
  | .local _ .vmem, ⟨9, _⟩ => ⟨S1x1, .f32⟩
  | .local _ .vmem, ⟨10, _⟩ => ⟨S1x1, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v53 : BitVec 1 := Scalar.cmpi .eq arg1 c7_i32
  let v54 : BitVec 32 := Scalar.extui v53
  let c0_i32_25 : BitVec 32 := 0#32
  let v55 : BitVec 1 := Scalar.cmpi .ne v54 c0_i32_25
  v55

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1000x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S16384 : S_.BroadcastsInDim S16384 (![] : Fin 0 → Fin S16384.rank)
  shapeCasts_S16384_S16384x1 : S16384.ShapeCasts S16384x1
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  broadcasts_S1024x1_S1024x1000 : S1024x1.Broadcasts S1024x1000
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1000_d1_w32 : S1024x1000.Iotas .tc 32 [1]
  reduces_S1024x1_S1 : S1024x1.Reduces [0] S1
  shapeCasts_S1_S1x1 : S1.ShapeCasts S1x1
  natLt_1_32 : 1 < 32
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  iota_S8x128_d0_w32 : S8x128.Iotas .tc 32 [0]
  iota_S8x128_d1_w32 : S8x128.Iotas .tc 32 [1]
  inpos_S1x1_p0_0 : ∀ a, (![0, 0] : Fin 2 → Nat) a < S1x1.size a
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  slices_S16x128_S1x1_0_1 : S16x128.Slices ![0, 1] S1x1
  slices_S16x128_S1x1_8_1 : S16x128.Slices ![8, 1] S1x1
  dot_S1024x1000_S1000x512_S1024x512_1_0_0_1_n_n_wf : DotDims.WF S1024x1000 S1000x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S16384x1000.size a
  hwx0_0 : ∀ i : grid0.Coords, EltTy.bits .f32 = 32 ∨ (Rect.block (s := S16384x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S1000x512.size a
  hwx0_2 : ∀ i : grid0.Coords, EltTy.bits .bf16 = 32 ∨ (Rect.block (s := S1000x512) S1000x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .i32 = 32 ∨ (Rect.block (s := S16384x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

def dot_S1024x1000_S1000x512_S1024x512_1_0_0_1_n_n : DotDims S1024x1000 S1000x512 S1024x512 where
  lhsContracting := [1]
  rhsContracting := [0]
  lhsNonContracting := [0]
  rhsNonContracting := [1]
  lhsBatch := []
  rhsBatch := []
  wf := dot_S1024x1000_S1000x512_S1024x512_1_0_0_1_n_n_wf

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1000x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x1000 : Shape := ⟨2, ![16384, 1000]⟩
abbrev S16384x512 : Shape := ⟨2, ![16384, 512]⟩
abbrev S1000x512 : Shape := ⟨2, ![1000, 512]⟩
abbrev S16384 : Shape := ⟨1, ![16384]⟩
abbrev S_ : Shape := ⟨0, ![]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 77
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x512, .f32⟩
  | .hbm, ⟨2, _⟩ => ⟨S1000x512, .f32⟩
  | .hbm, ⟨3, _⟩ => ⟨S16384, .i32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x1000, .f32⟩
  | .hbm, ⟨11, _⟩ => ⟨S16384x1000, .f32⟩
  | .hbm, ⟨12, _⟩ => ⟨S16384x1000, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x1, .f32⟩
  | .hbm, ⟨17, _⟩ => ⟨S16384x1000, .f32⟩
  | .hbm, ⟨18, _⟩ => ⟨S16384x1000, .f32⟩
  | .hbm, ⟨19, _⟩ => ⟨S16384x1, .i32⟩
  | .hbm, ⟨20, _⟩ => ⟨S_, .i32⟩
  | .hbm, ⟨21, _⟩ => ⟨S16384x1, .i32⟩
  | .hbm, ⟨22, _⟩ => ⟨S16384x1, .i1⟩
  | .hbm, ⟨23, _⟩ => ⟨S_, .i32⟩
  | .hbm, ⟨24, _⟩ => ⟨S16384x1, .i32⟩
  | .hbm, ⟨25, _⟩ => ⟨S16384x1, .i32⟩
  | .hbm, ⟨26, _⟩ => ⟨S16384x1, .i32⟩
  | .hbm, ⟨27, _⟩ => ⟨S16384x1x1, .i32⟩
  | .hbm, ⟨28, _⟩ => ⟨S1, .i32⟩
  | .hbm, ⟨29, _⟩ => ⟨S_, .i32⟩
  | .hbm, ⟨30, _⟩ => ⟨S16384x1x1, .i32⟩
  | .hbm, ⟨31, _⟩ => ⟨S16384x1x1, .i1⟩
  | .hbm, ⟨32, _⟩ => ⟨S1x1x1, .i32⟩
  | .hbm, ⟨33, _⟩ => ⟨S16384x1x1, .i32⟩
  | .hbm, ⟨34, _⟩ => ⟨S16384x1x1, .i1⟩
  | .hbm, ⟨35, _⟩ => ⟨S16384x1x1, .i1⟩
  | .hbm, ⟨36, _⟩ => ⟨S_, .i1⟩
  | .hbm, ⟨37, _⟩ => ⟨S16384x1, .i1⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .i32⟩
  | .hbm, ⟨49, _⟩ => ⟨S16384, .i32⟩
  | .hbm, ⟨50, _⟩ => ⟨S16384, .i1⟩
  | .hbm, ⟨51, _⟩ => ⟨S_, .i32⟩
  | .hbm, ⟨52, _⟩ => ⟨S16384, .i32⟩
  | .hbm, ⟨53, _⟩ => ⟨S16384, .i32⟩
  | .hbm, ⟨54, _⟩ => ⟨S16384, .i32⟩
  | .hbm, ⟨55, _⟩ => ⟨S16384x1, .i32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S_, .f32⟩
  | .hbm, ⟨63, _⟩ => ⟨S16384, .f32⟩
  | .hbm, ⟨64, _⟩ => ⟨S16384, .f32⟩
  | .hbm, ⟨65, _⟩ => ⟨S_, .f32⟩
  | .hbm, ⟨66, _⟩ => ⟨S16384, .f32⟩
  | .hbm, ⟨67, _⟩ => ⟨S16384, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_cst : Ref sig .tc := ⟨.hbm, 43, rfl⟩
abbrev main_v4 : Ref sig .tc := ⟨.hbm, 44, rfl⟩
abbrev main_cst_0 : Ref sig .tc := ⟨.hbm, 45, rfl⟩
abbrev main_v5 : Ref sig .tc := ⟨.hbm, 46, rfl⟩
abbrev main_v6 : Ref sig .tc := ⟨.hbm, 47, rfl⟩
abbrev main_c : Ref sig .tc := ⟨.hbm, 48, rfl⟩
abbrev main_v7 : Ref sig .tc := ⟨.hbm, 49, rfl⟩
abbrev main_v8 : Ref sig .tc := ⟨.hbm, 50, rfl⟩
abbrev main_c_1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_call2_v0 : Ref sig .tc := ⟨.hbm, 58, rfl⟩
abbrev main_call2_cst : Ref sig .tc := ⟨.hbm, 59, rfl⟩
abbrev main_call2_v1 : Ref sig .tc := ⟨.hbm, 60, rfl⟩
abbrev main_v15 : Ref sig .tc := ⟨.hbm, 61, rfl⟩
abbrev main_cst_2 : Ref sig .tc := ⟨.hbm, 62, rfl⟩
abbrev main_v16 : Ref sig .tc := ⟨.hbm, 63, rfl⟩
abbrev main_v17 : Ref sig .tc := ⟨.hbm, 64, rfl⟩
abbrev main_cst_3 : Ref sig .tc := ⟨.hbm, 65, rfl⟩
abbrev main_v18 : Ref sig .tc := ⟨.hbm, 66, rfl⟩
abbrev main_v19 : Ref sig .tc := ⟨.hbm, 67, rfl⟩
abbrev main_cst_4 : Ref sig .tc := ⟨.hbm, 68, rfl⟩
abbrev main_v20 : Ref sig .tc := ⟨.hbm, 69, rfl⟩
abbrev main_cst_5 : Ref sig .tc := ⟨.hbm, 70, rfl⟩
abbrev main_v21 : Ref sig .tc := ⟨.hbm, 71, rfl⟩
abbrev main_cst_6 : Ref sig .tc := ⟨.hbm, 72, rfl⟩
abbrev main_v22 : Ref sig .tc := ⟨.hbm, 73, rfl⟩
abbrev main_cst_7 : Ref sig .tc := ⟨.hbm, 74, rfl⟩
abbrev main_v23 : Ref sig .tc := ⟨.hbm, 75, rfl⟩
abbrev main_v24 : Ref sig .tc := ⟨.hbm, 76, rfl⟩

abbrev nD : Nat := 1
abbrev τ : Topo := Topo.v7x

variable {F : FTy → Type} [FloatOps F]

class Facts₀ : Prop where
  reducesTo_S16384x1000_S16384_d1 : S16384x1000.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  reducesTo_S16384_S_d0 : S16384.ReducesTo [0] S_
  reducesTo_S16384x512_S16384_d1 : S16384x512.ReducesTo [1] S16384
  gather_S16384x1000_S16384x1x1_S16384x1_n_1_0_0_1_2_11_wf : GatherDims.WF S16384x1000 S16384x1x1 S16384x1 [] [1] [0] [1] [0] 2 ![1, 1]
  gather_S1000x512_S16384x1_S16384x512_1_0_n_n_0_1_1512_wf : GatherDims.WF S1000x512 S16384x1 S16384x512 [1] [0] [] [0] [] 1 ![1, 512]

variable [Facts₀]

def gather_S16384x1000_S16384x1x1_S16384x1_n_1_0_0_1_2_11 : GatherDims S16384x1000 S16384x1x1 S16384x1 where
  offsetDims := []
  collapsedSliceDims := [1]
  operandBatchingDims := [0]
  startIndicesBatchingDims := [0]
  startIndexMap := [1]
  indexVectorDim := 2
  sliceSizes := ![1, 1]
  wf := gather_S16384x1000_S16384x1x1_S16384x1_n_1_0_0_1_2_11_wf
def gather_S1000x512_S16384x1_S16384x512_1_0_n_n_0_1_1512 : GatherDims S1000x512 S16384x1 S16384x512 where
  offsetDims := [1]
  collapsedSliceDims := [0]
  operandBatchingDims := []
  startIndicesBatchingDims := []
  startIndexMap := [0]
  indexVectorDim := 1
  sliceSizes := ![1, 512]
  wf := gather_S1000x512_S16384x1_S16384x512_1_0_n_n_0_1_1512_wf

class Facts : Prop extends Facts₀ where

variable [Facts]
-- ==== Proof.Pieces.lean ====
/- What each control case of the kernel body leaves in the two carried accumulators and in the output block, as the body's
   pure payloads of the input blocks and of the accumulators' previous contents. -/
import proofs.«403327_j23201413333226_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]
variable (c : Dev nD) (i : grid0.Coords) (arg2 : Memref sig .tc .vmem S1024x1000 .f32) (harg2 : arg2.IsWhole)
  (arg3 : Memref sig .tc .vmem S1024x512 .f32) (harg3 : arg3.IsWhole) (arg4 : Memref sig .tc .vmem S1000x512 .bf16) (harg4 : arg4.IsWhole)
  (arg5 : Memref sig .tc .vmem S1024x1 .i32) (harg5 : arg5.IsWhole) (arg6 : Memref sig .tc .vmem S8x128 .f32) (harg6 : arg6.IsWhole)
  (arg7 : Memref sig .tc .vmem S1x1 .f32) (harg7 : arg7.IsWhole) (arg8 : Memref sig .tc .vmem S1x1 .f32) (harg8 : arg8.IsWhole)
  (x0 : Vec F S1024x1000 .f32) (x1 : Vec F S1024x512 .f32) (x2 : Vec F S1000x512 .bf16) (x3 : Vec F S1024x1 .i32)
  (xs0 xs1 : Vec F S1x1 .f32)

theorem hz2 : (![0, 0] : Fin 2 → Nat) = fun _ => 0 := funext fun a => by fin_cases a <;> rfl

/-- First point of a core's run: the cross-entropy accumulator is reset to the zero block and then holds the zero block
    plus this tile's sum. -/
theorem sA0 (hc0 : cond0_0 i) (hc1 : ¬cond0_1 i) :
    sout0_A_0 c i arg2 harg2 arg3 harg3 arg4 harg4 arg5 harg5 arg6 harg6 arg7 harg7 arg8 harg8 hc0 hc1 x0 x1 x2 x3
      = k0_pay6 x0 x3 (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) hz2, View.readCov_unit_zero (S := S1x1) _ hz2]
  simp only [View.readCov_unit_zero (S := S1x1) _ hz2, View.readAt_eq_ld, harg2.read_unread, harg3.read_unread, harg4.read_unread, harg5.read_unread, harg7.read_unread, harg8.read_unread, View.ld_unit_zero (S := S1024x1000) hz2, View.ld_unit_zero (S := S1024x512) hz2, View.ld_unit_zero (S := S1000x512) hz2, View.ld_unit_zero (S := S1024x1) hz2, View.ld_unit_zero (S := S1x1) hz2]

/-- First point of a core's run: the margin accumulator likewise. -/
theorem sA1 (hc0 : cond0_0 i) (hc1 : ¬cond0_1 i) :
    sout0_A_1 c i arg2 harg2 arg3 harg3 arg4 harg4 arg5 harg5 arg6 harg6 arg7 harg7 arg8 harg8 hc0 hc1 x0 x1 x2 x3
      = k0_pay1 (k0_pay7 x3 x2) x1 (k0_pay4 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) hz2, View.readCov_unit_zero (S := S1x1) _ hz2]
  simp only [View.readCov_unit_zero (S := S1x1) _ hz2, View.readAt_eq_ld, harg2.read_unread, harg3.read_unread, harg4.read_unread, harg5.read_unread, harg7.read_unread, harg8.read_unread, View.ld_unit_zero (S := S1024x1000) hz2, View.ld_unit_zero (S := S1024x512) hz2, View.ld_unit_zero (S := S1000x512) hz2, View.ld_unit_zero (S := S1024x1) hz2, View.ld_unit_zero (S := S1x1) hz2]

/-- A middle point: the cross-entropy accumulator holds what the point before left plus this tile's sum. -/
theorem sB0 (hc0 : ¬cond0_0 i) (hc1 : ¬cond0_1 i) :
    sout0_B_0 c i arg2 harg2 arg3 harg3 arg4 harg4 arg5 harg5 arg6 harg6 arg7 harg7 arg8 harg8 hc0 hc1 x0 x1 x2 x3 xs0 xs1
      = k0_pay6 x0 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readCov_unit_zero (S := S1x1) _ hz2, View.readAt_eq_ld, harg2.read_unread, harg3.read_unread, harg4.read_unread, harg5.read_unread, harg7.read_unread, harg8.read_unread, View.ld_unit_zero (S := S1024x1000) hz2, View.ld_unit_zero (S := S1024x512) hz2, View.ld_unit_zero (S := S1000x512) hz2, View.ld_unit_zero (S := S1024x1) hz2, View.ld_unit_zero (S := S1x1) hz2]

/-- A middle point: the margin accumulator likewise. -/
theorem sB1 (hc0 : ¬cond0_0 i) (hc1 : ¬cond0_1 i) :
    sout0_B_1 c i arg2 harg2 arg3 harg3 arg4 harg4 arg5 harg5 arg6 harg6 arg7 harg7 arg8 harg8 hc0 hc1 x0 x1 x2 x3 xs0 xs1
      = k0_pay1 (k0_pay7 x3 x2) x1 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readCov_unit_zero (S := S1x1) _ hz2, View.readAt_eq_ld, harg2.read_unread, harg3.read_unread, harg4.read_unread, harg5.read_unread, harg7.read_unread, harg8.read_unread, View.ld_unit_zero (S := S1024x1000) hz2, View.ld_unit_zero (S := S1024x512) hz2, View.ld_unit_zero (S := S1000x512) hz2, View.ld_unit_zero (S := S1024x1) hz2, View.ld_unit_zero (S := S1x1) hz2]

/-- Last point of a core's run: the accumulators as at a middle point, -/
theorem sC0 (hc0 : ¬cond0_0 i) (hc1 : cond0_1 i) :
    sout0_C_0 c i arg2 harg2 arg3 harg3 arg4 harg4 arg5 harg5 arg6 harg6 arg7 harg7 arg8 harg8 hc0 hc1 x0 x1 x2 x3 xs0 xs1
      = k0_pay6 x0 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readCov_unit_zero (S := S1x1) _ hz2, View.readAt_eq_ld, harg2.read_unread, harg3.read_unread, harg4.read_unread, harg5.read_unread, harg7.read_unread, harg8.read_unread, View.ld_unit_zero (S := S1024x1000) hz2, View.ld_unit_zero (S := S1024x512) hz2, View.ld_unit_zero (S := S1000x512) hz2, View.ld_unit_zero (S := S1024x1) hz2, View.ld_unit_zero (S := S1x1) hz2]

theorem sC1 (hc0 : ¬cond0_0 i) (hc1 : cond0_1 i) :
    sout0_C_1 c i arg2 harg2 arg3 harg3 arg4 harg4 arg5 harg5 arg6 harg6 arg7 harg7 arg8 harg8 hc0 hc1 x0 x1 x2 x3 xs0 xs1
      = k0_pay1 (k0_pay7 x3 x2) x1 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readCov_unit_zero (S := S1x1) _ hz2, View.readAt_eq_ld, harg2.read_unread, harg3.read_unread, harg4.read_unread, harg5.read_unread, harg7.read_unread, harg8.read_unread, View.ld_unit_zero (S := S1024x1000) hz2, View.ld_unit_zero (S := S1024x512) hz2, View.ld_unit_zero (S := S1000x512) hz2, View.ld_unit_zero (S := S1024x1) hz2, View.ld_unit_zero (S := S1x1) hz2]

/-- and the output block is written from the two accumulators as they stand after this point's update. -/
theorem oC4 (hc0 : ¬cond0_0 i) (hc1 : cond0_1 i) :
    out0_C_4 c i arg2 harg2 arg3 harg3 arg4 harg4 arg5 harg5 arg6 harg6 arg7 harg7 arg8 harg8 hc0 hc1 x0 x1 x2 x3 xs0 xs1
      = k0_pay2 (k0_pay6 x0 x3 xs0) (k0_pay1 (k0_pay7 x3 x2) x1 xs1) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readCov_unit_zero (S := S1x1) _ hz2, View.readAt_eq_ld, harg2.read_unread, harg3.read_unread, harg4.read_unread, harg5.read_unread, harg7.read_unread, harg8.read_unread, View.ld_unit_zero (S := S1024x1000) hz2, View.ld_unit_zero (S := S1024x512) hz2, View.ld_unit_zero (S := S1000x512) hz2, View.ld_unit_zero (S := S1024x1) hz2, View.ld_unit_zero (S := S1x1) hz2]

end Cert.KernelIdeal.Pieces

end
-- ==== Proof.Steps.lean ====
/- What the two carried accumulators and the output block hold after each grid point, in terms of the body's pure
   payloads: at the first point of a core's eight the accumulators restart from the zero block, at every later point they
   continue from what the point before left, and at the last the output block is written from them. -/
import proofs.«403327_j23201413333226_3_alg».proof.Proof.Pieces

noncomputable section

open Idealize.ShloMosaic Idealize.ShloMosaic.TcCoe Idealize.SL.Sem
open Idealize.ShloMosaic.Pipeline (Dat)

namespace Cert.KernelIdeal.Steps

open Cert.KernelIdeal Cert.KernelIdeal.Gen Cert.KernelIdeal.Pieces

variable {F : FTy → Type} [FloatOps F]
variable (m : (ℓ : Loc nD τ sig) → Buf (Elt F) ℓ)

/-- The four input blocks at a point, at their literal types. -/
abbrev xb (c : Dev nD) (t : Fin cfg0.N) : Vec F S1024x1000 .f32 := iblk m c 0 t
abbrev fb (c : Dev nD) (t : Fin cfg0.N) : Vec F S1024x512 .f32 := iblk m c 1 t
abbrev mb (c : Dev nD) (t : Fin cfg0.N) : Vec F S1000x512 .bf16 := iblk m c 2 t
abbrev lb (c : Dev nD) (t : Fin cfg0.N) : Vec F S1024x1 .i32 := iblk m c 3 t

/-- What the point before `t` left in the two accumulators. -/
abbrev prevCls (c : Dev nD) (t : Fin cfg0.N) : Vec F S1x1 .f32 := (outsAt0 m c (t.val - 1) (Nat.lt_of_le_of_lt (Nat.sub_le _ _) t.isLt)).2.1
abbrev prevCol (c : Dev nD) (t : Fin cfg0.N) : Vec F S1x1 .f32 := (outsAt0 m c (t.val - 1) (Nat.lt_of_le_of_lt (Nat.sub_le _ _) t.isLt)).2.2

theorem first_point (c : Dev nD) (t : Fin cfg0.N) (h0 : t.val % 8 = 0) (h1 : ¬t.val % 8 = 7) :
    (outsAt0 m c t.val t.isLt).2.1 = k0_pay6 (xb m c t) (lb m c t) (k0_pay3 (F := F))
      ∧ (outsAt0 m c t.val t.isLt).2.2 = k0_pay1 (k0_pay7 (lb m c t) (mb m c t)) (fb m c t) (k0_pay4 (F := F)) := by
  rw [outsAt0_A m c t h0 h1]
  dsimp only
  exact ⟨sA0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h)),
    sA1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h))⟩

theorem middle_point (c : Dev nD) (t : Fin cfg0.N) (h0 : ¬t.val % 8 = 0) (h1 : ¬t.val % 8 = 7) :
    (outsAt0 m c t.val t.isLt).2.1 = k0_pay6 (xb m c t) (lb m c t) (prevCls m c t)
      ∧ (outsAt0 m c t.val t.isLt).2.2 = k0_pay1 (k0_pay7 (lb m c t) (mb m c t)) (fb m c t) (prevCol m c t) := by
  rw [outsAt0_B m c t h0 h1]
  dsimp only
  exact ⟨sB0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (fun h => h1 ((hcond0_1 t).mp h)),
    sB1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (fun h => h1 ((hcond0_1 t).mp h))⟩

theorem last_point (c : Dev nD) (t : Fin cfg0.N) (h0 : ¬t.val % 8 = 0) (h1 : t.val % 8 = 7) :
    (outsAt0 m c t.val t.isLt).2.1 = k0_pay6 (xb m c t) (lb m c t) (prevCls m c t)
      ∧ (outsAt0 m c t.val t.isLt).2.2 = k0_pay1 (k0_pay7 (lb m c t) (mb m c t)) (fb m c t) (prevCol m c t)
      ∧ (outsAt0 m c t.val t.isLt).1
          = k0_pay2 (k0_pay6 (xb m c t) (lb m c t) (prevCls m c t)) (k0_pay1 (k0_pay7 (lb m c t) (mb m c t)) (fb m c t) (prevCol m c t)) := by
  rw [outsAt0_C m c t h0 h1]
  dsimp only
  exact ⟨sC0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1),
    sC1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1),
    oC4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1)⟩

end Cert.KernelIdeal.Steps

end
-- ==== Proof.Blocks.lean ====
/- The blocks the kernel body reads at a grid point, as entries of the arrays the region finds: point `t` reads rows
   `1024·t … 1024·t + 1023` of the logits, of the features and of the clipped label column, and the whole table of class means;
   and what the host lines before the region wrote into the label column and the class-mean copy. -/
import proofs.«403327_j23201413333226_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The block index of the three row-tiled inputs at point `t` is `t` itself (the grid is 2 × 8 and the index map is
    `8·c + k`); the class-mean table has one block; the output's block index is the core. -/
theorem idx_rows : ∀ t : Fin cfg0.N, (win0_0.index t 0 = t.val ∧ win0_0.index t 1 = 0) ∧ (win0_1.index t 0 = t.val ∧ win0_1.index t 1 = 0)
    ∧ (win0_3.index t 0 = t.val ∧ win0_3.index t 1 = 0) ∧ (win0_2.index t 0 = 0 ∧ win0_2.index t 1 = 0)
    ∧ (win0_4.index t 0 = t.val / 8 ∧ win0_4.index t 1 = 0) :=
  (by decide +kernel : ∀ t : Fin grid0.N, (win0_0.index t 0 = t.val ∧ win0_0.index t 1 = 0) ∧ (win0_1.index t 0 = t.val ∧ win0_1.index t 1 = 0)
    ∧ (win0_3.index t 0 = t.val ∧ win0_3.index t 1 = 0) ∧ (win0_2.index t 0 = 0 ∧ win0_2.index t 1 = 0)
    ∧ (win0_4.index t 0 = t.val / 8 ∧ win0_4.index t 1 = 0))

theorem row_lt (t : Fin cfg0.N) (p : Fin 1024) : t.val * 1024 + p.val < 16384 := by
  have h : t.val < 16 := lt_of_lt_of_eq t.isLt (show cfg0.N = 16 from N_0)
  have := p.isLt
  omega

/-- The logits block at point `t`. -/
theorem xblk_apply (c : Dev nD) (t : Fin cfg0.N) (p : Fin 1024) (q : Fin 1000) :
    (iblk m c 0 t : Vec F S1024x1000 .f32) (ix2 p q) = (V m c main_arg0 : Vec F S16384x1000 .f32) (ix2 ⟨t.val * 1024 + p.val, row_lt t p⟩ q) := by
  unfold iblk
  rw [View.read_apply]
  show V m c main_arg0 _ = V m c main_arg0 _
  congr 1
  funext a
  apply Fin.ext
  match a with
  | ⟨0, _⟩ => show win0_0.index t 0 * 1024 + 1 * p.val = t.val * 1024 + p.val; rw [(idx_rows t).1.1]; omega
  | ⟨1, _⟩ => show win0_0.index t 1 * 1000 + 1 * q.val = q.val; rw [(idx_rows t).1.2]; omega

/-- The features block at point `t`. -/
theorem fblk_apply (c : Dev nD) (t : Fin cfg0.N) (p : Fin 1024) (q : Fin 512) :
    (iblk m c 1 t : Vec F S1024x512 .f32) (ix2 p q) = (V m c main_arg1 : Vec F S16384x512 .f32) (ix2 ⟨t.val * 1024 + p.val, row_lt t p⟩ q) := by
  unfold iblk
  rw [View.read_apply]
  show V m c main_arg1 _ = V m c main_arg1 _
  congr 1
  funext a
  apply Fin.ext
  match a with
  | ⟨0, _⟩ => show win0_1.index t 0 * 1024 + 1 * p.val = t.val * 1024 + p.val; rw [(idx_rows t).2.1.1]; omega
  | ⟨1, _⟩ => show win0_1.index t 1 * 512 + 1 * q.val = q.val; rw [(idx_rows t).2.1.2]; omega

/-- The label-column block at point `t`. -/
theorem lblk_apply (c : Dev nD) (t : Fin cfg0.N) (p : Fin 1024) (q : Fin 1) :
    (iblk m c 3 t : Vec F S1024x1 .i32) (ix2 p q) = (V m c main_v1 : Vec F S16384x1 .i32) (ix2 ⟨t.val * 1024 + p.val, row_lt t p⟩ q) := by
  unfold iblk
  rw [View.read_apply]
  show V m c main_v1 _ = V m c main_v1 _
  congr 1
  funext a
  apply Fin.ext
  match a with
  | ⟨0, _⟩ => show win0_3.index t 0 * 1024 + 1 * p.val = t.val * 1024 + p.val; rw [(idx_rows t).2.2.1.1]; omega
  | ⟨1, _⟩ => show win0_3.index t 1 * 1 + 1 * q.val = q.val; rw [(idx_rows t).2.2.1.2]; omega

/-- The class-mean block at every point is the whole table. -/
theorem mblk_apply (c : Dev nD) (t : Fin cfg0.N) (p : Fin 1000) (q : Fin 512) :
    (iblk m c 2 t : Vec F S1000x512 .bf16) (ix2 p q) = (V m c main_v2 : Vec F S1000x512 .bf16) (ix2 p q) := by
  unfold iblk
  rw [View.read_apply]
  show V m c main_v2 _ = V m c main_v2 _
  congr 1
  funext a
  apply Fin.ext
  match a with
  | ⟨0, _⟩ => show win0_2.index t 0 * 1000 + 1 * p.val = p.val; rw [(idx_rows t).2.2.2.1.1]; omega
  | ⟨1, _⟩ => show win0_2.index t 1 * 512 + 1 * q.val = q.val; rw [(idx_rows t).2.2.2.1.2]; omega

/-- The label column the region finds: the labels clipped into [0, 999], stood up as a column. -/
theorem V_labels (c : Dev nD) :
    (V m c main_v1 : Vec F S16384x1 .i32)
      = shapeCast S16384x1 (minsi (broadcastInDim S16384 ![] bcast_S_S16384 (constantI S_ 32 999#32))
          (maxsi (broadcastInDim S16384 ![] bcast_S_S16384 (constantI S_ 32 0#32)) (m ((c : Thread nD τ).loc main_arg3)))) shapeCasts_S16384_S16384x1 := by
  dsimp only [V, V0]
  simp only [hostOps0, hostOps0_1, hostOps0_2, List.flatten_cons, List.flatten_nil, List.append_nil, List.cons_append, List.nil_append]
  after_results
  rfl

/-- The class-mean copy the region finds: the table itself, its format changed. -/
theorem V_means (c : Dev nD) :
    (V m c main_v2 : Vec F S1000x512 .bf16) = truncf .bf16 (m ((c : Thread nD τ).loc main_arg2)) bitsLt_bf16_f32 := by
  dsimp only [V, V0]
  simp only [hostOps0, hostOps0_1, hostOps0_2, List.flatten_cons, List.flatten_nil, List.append_nil, List.cons_append, List.nil_append]
  after_results

end Cert.KernelIdeal.Blocks

end
-- ==== Proof.Spec.lean ====
/-
  The specification both programs are compared through: the loss
      1 · mean_r nll(r) + 0.1 · mean_r max(5 − ‖f_r − μ_{ℓ_r}‖, 0)
  over a batch of 16384 rows, written twice as plain functions of the four argument arrays
  (logits X, features Fe, class means Mu, labels L) on the extended reals:
  * in the shape the tiled kernel computes it (sixteen tiles of 1024 rows, eight per core, the
    per-core partial sums added, the picked logit and the picked mean row taken by a one-hot sum,
    the labels clipped into [0, 999]) — `kernelLoss`;
  * in the shape the jnp reference computes it (log-softmax, the label wrapped if negative, a
    clamped gather, one sum over all rows) — `refLoss`.
  No program is imported here.
-/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx

/-- The logits' shape, the features', the class means', the labels'. -/
abbrev SX : Shape := ⟨2, ![16384, 1000]⟩
abbrev SF : Shape := ⟨2, ![16384, 512]⟩
abbrev SM : Shape := ⟨2, ![1000, 512]⟩
abbrev SL : Shape := ⟨1, ![16384]⟩

/-- A row number as a coordinate of the batch axis (total: reduced modulo the batch size). -/
def row (r : ℕ) : Fin 16384 := ⟨r % 16384, Nat.mod_lt _ (by decide)⟩

/-- Row `r` of the logits, of the features; the label of row `r`. -/
def xrow (X : SX.Idx → EReal) (r : ℕ) : Fin 1000 → EReal := fun j => X (ix2 (row r) j)
def frow (Fe : SF.Idx → EReal) (r : ℕ) : Fin 512 → EReal := fun d => Fe (ix2 (row r) d)
def lab (L : SL.Idx → BitVec 32) (r : ℕ) : BitVec 32 := L (ix1 (row r))

/-- The float literals both programs carry: 1, 0.1 (as its f32 word), the batch size 16384, the margin 5. -/
def c1 : EReal := Ideal.ofBits .f32 0x3F800000#32
def cTenth : EReal := Ideal.ofBits .f32 0x3DCCCCCD#32
def cN : EReal := Ideal.ofBits .f32 0x46800000#32
def c5 : EReal := Ideal.ofBits .f32 0x40A00000#32

/-! ## The kernel's shape -/

/-- A row's maximum, as a fold from −∞. -/
def rowMax (x : Fin 1000 → EReal) : EReal := (Finset.univ : Finset (Fin 1000)).fold max ⊥ x

/-- One row's negative log-likelihood as the kernel forms it: log-sum-exp (shifted by the row maximum) minus the
    logit picked by a masked sum over the classes. -/
def nllK (x : Fin 1000 → EReal) (l : BitVec 32) : EReal :=
  (Ideal.log (∑ j : Fin 1000, Ideal.exp (x j - rowMax x)) + rowMax x)
    - ∑ j : Fin 1000, (if BitVec.ofNat 32 j.val = l then x j else 0)

/-- Entry `d` of the class-mean row picked by a one-hot sum over the classes. -/
def gathK (Mu : SM.Idx → EReal) (l : BitVec 32) (d : Fin 512) : EReal :=
  ∑ k : Fin 1000, (if BitVec.ofNat 32 k.val = l then (1 : EReal) else 0) * Mu (ix2 k d)

/-- One row's margin term as the kernel forms it. -/
def colK (f : Fin 512 → EReal) (Mu : SM.Idx → EReal) (l : BitVec 32) : EReal :=
  max (c5 - Ideal.sqrt (∑ d : Fin 512, (f d - gathK Mu l d) * (f d - gathK Mu l d))) 0

/-- The two sums over the 1024 rows of tile `b`. -/
def tileCls (X : SX.Idx → EReal) (Lc : SL.Idx → BitVec 32) (b : ℕ) : EReal :=
  ∑ i : Fin 1024, nllK (xrow X (b * 1024 + i.val)) (lab Lc (b * 1024 + i.val))
def tileCol (Fe : SF.Idx → EReal) (Mu : SM.Idx → EReal) (Lc : SL.Idx → BitVec 32) (b : ℕ) : EReal :=
  ∑ i : Fin 1024, colK (frow Fe (b * 1024 + i.val)) Mu (lab Lc (b * 1024 + i.val))

/-- Core `c`'s partial sums: its eight tiles, added in order. -/
def coreCls (X : SX.Idx → EReal) (Lc : SL.Idx → BitVec 32) (c : ℕ) : EReal :=
  ∑ k ∈ Finset.range 8, tileCls X Lc (8 * c + k)
def coreCol (Fe : SF.Idx → EReal) (Mu : SM.Idx → EReal) (Lc : SL.Idx → BitVec 32) (c : ℕ) : EReal :=
  ∑ k ∈ Finset.range 8, tileCol Fe Mu Lc (8 * c + k)

/-- The labels clipped into [0, 999] (signed), as the kernel's wrapper does before the launch. -/
def clipL (L : SL.Idx → BitVec 32) : SL.Idx → BitVec 32 :=
  fun i => IntOp.minsi 999#32 (IntOp.maxsi 0#32 (L i))

/-- The kernel's result. -/
def kernelLoss (X : SX.Idx → EReal) (Fe : SF.Idx → EReal) (Mu : SM.Idx → EReal) (L : SL.Idx → BitVec 32) : EReal :=
  c1 * Ideal.div (coreCls X (clipL L) 0 + coreCls X (clipL L) 1) cN
    + cTenth * Ideal.div (coreCol Fe Mu (clipL L) 0 + coreCol Fe Mu (clipL L) 1) cN

/-! ## The reference's shape -/

/-- A negative label counts from the end (jnp's indexing): `l + 1000` when `l < 0`. -/
def wrapL (l : BitVec 32) : BitVec 32 := Scalar.select (IntOp.cmpi .slt l 0#32) (IntOp.addi l 1000#32) l

/-- The class a gather reads for label `l`: the wrapped label, read signed and clamped into [0, 999]. -/
def idxOf (l : BitVec 32) : Fin 1000 := ⟨min (wrapL l).toInt.toNat 999, by omega⟩

/-- Whether the wrapped label is in range (`take_along_axis` fills with NaN where it is not). -/
def validL (l : BitVec 32) : BitVec 1 :=
  IntOp.andi (IntOp.cmpi .sge (wrapL l) 0#32) (IntOp.cmpi .sle (wrapL l) 999#32)

/-- One entry of the log-softmax of a row. -/
def logp (x : Fin 1000 → EReal) (j : Fin 1000) : EReal :=
  (x j - rowMax x) - Ideal.log (∑ k : Fin 1000, Ideal.exp (x k - rowMax x))

/-- The fill value of an out-of-range `take_along_axis`. -/
def nanV : EReal := Ideal.ofBits .f32 0x7FC00000#32

/-- The log-probability the reference picks for one row. -/
def refPick (x : Fin 1000 → EReal) (l : BitVec 32) : EReal :=
  Scalar.select (validL l) (logp x (idxOf l)) nanV

/-- One row's margin term as the reference forms it. -/
def refCol (f : Fin 512 → EReal) (Mu : SM.Idx → EReal) (l : BitVec 32) : EReal :=
  max (c5 - Ideal.sqrt (∑ d : Fin 512, (f d - Mu (ix2 (idxOf l) d)) * (f d - Mu (ix2 (idxOf l) d)))) 0

/-- The reference's result. -/
def refLoss (X : SX.Idx → EReal) (Fe : SF.Idx → EReal) (Mu : SM.Idx → EReal) (L : SL.Idx → BitVec 32) : EReal :=
  c1 * (-(Ideal.div (∑ r : Fin 16384, refPick (xrow X r.val) (lab L r.val)) cN))
    + cTenth * Ideal.div (∑ r : Fin 16384, refCol (frow Fe r.val) Mu (lab L r.val)) cN

end Cert.Loss

end
-- ==== Proof.LibColumn.lean ====
/-
  Column vectors read at an index given by coordinates: a column `[a, 1]` stretched over `b` lanes, and a vector
  `[a]` or a row `[1, a]` stood up as the column `[a, 1]`. Each is the library's general lemma for the operation
  with the coordinate arithmetic done once, for indices written `ix1` / `ix2`.
-/
import Idealize.ShloMosaic.Lib.Pipeline.Value
import Idealize.ShloMosaic.Lib.ValueIdx

namespace Cert.LibColumn

open Idealize.ShloMosaic Idealize.ShloMosaic.ValueIdx

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A row `[1, a]` cast to the column `[a, 1]` reads, at `(i, u)`, the row's entry `i`. -/
theorem shapeCast_1a_a1_apply {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

end Cert.LibColumn
-- ==== Proof.LibExtrema.lean ====
/-
  Extrema of a whole array on the host, at the exact instance.

  A host maximum-reduce over ALL axes of an array (jnp.max(x): the result has one index) from the initial value −∞ is
  the greatest entry; a minimum-reduce from +∞ is the least.  So when every entry is a real number the result is a
  real number too (the array has at least one entry), every entry lies between the least and the greatest, and if
  max(|least|, |greatest|) is 0 then every entry is 0.  Also: what the test  |x| < +∞  says of an extended real.
-/
import Idealize.ShloMosaic.PureOps.Ideal
import Idealize.ShloMosaic.PureOps.Ideal.Laws
import Idealize.ShloMosaic.PureOps.Reduce

noncomputable section

namespace Cert.LibExtrema

open Idealize.ShloMosaic

variable {s t u : Shape} {axes : List (Fin s.rank)}

/-- The scalar shape has one index. -/
instance scalarIdx_subsingleton : Subsingleton (⟨0, ![]⟩ : Shape).Idx := ⟨fun _ _ => funext fun d => d.elim0⟩

/-- The f32 pattern of −∞ denotes the bottom of the extended reals. -/
theorem ofBits_neg_inf : Ideal.ofBits .f32 0xFF800000#32 = ⊥ := by simp [Ideal.ofBits, Ideal.ieee]

/-- The f32 pattern of +∞ denotes the top of the extended reals. -/
theorem ofBits_pos_inf : Ideal.ofBits .f32 0x7F800000#32 = ⊤ := by simp [Ideal.ofBits, Ideal.ieee]

/-- A maximum-reduce into a result of one index is the maximum, from the initial value, over every entry. -/
theorem reduce_max_eq_fold [Subsingleton t.Idx] (x : s.Idx → Ideal .f32) (init : u.Idx → Ideal .f32)
    (h : s.ReducesTo axes t) (hu : 0 < u.numel) (j : t.Idx) :
    Host.reduce (FloatOps.maximumf (F := Ideal) (φ := .f32)) x init h hu j
      = (Finset.univ : Finset s.Idx).fold (max : EReal → EReal → EReal) (init (Shape.Idx.first hu)) x := by
  rw [Host.reduce_eq_fold, Finset.filter_true_of_mem (fun i _ => Subsingleton.elim _ _)]
  rfl

/-- A minimum-reduce into a result of one index is the minimum, from the initial value, over every entry. -/
theorem reduce_min_eq_fold [Subsingleton t.Idx] (x : s.Idx → Ideal .f32) (init : u.Idx → Ideal .f32)
    (h : s.ReducesTo axes t) (hu : 0 < u.numel) (j : t.Idx) :
    Host.reduce (FloatOps.minimumf (F := Ideal) (φ := .f32)) x init h hu j
      = (Finset.univ : Finset s.Idx).fold (min : EReal → EReal → EReal) (init (Shape.Idx.first hu)) x := by
  rw [Host.reduce_eq_fold, Finset.filter_true_of_mem (fun i _ => Subsingleton.elim _ _)]
  rfl

/-- Every entry is at most the array's maximum. -/
theorem le_reduce_max [Subsingleton t.Idx] (x : s.Idx → Ideal .f32) (init : u.Idx → Ideal .f32)
    (h : s.ReducesTo axes t) (hu : 0 < u.numel) (j : t.Idx) (i : s.Idx) :
    x i ≤ Host.reduce (FloatOps.maximumf (F := Ideal) (φ := .f32)) x init h hu j := by
  rw [reduce_max_eq_fold]
  exact (Finset.le_fold_max _).2 (Or.inr ⟨i, Finset.mem_univ i, le_rfl⟩)

/-- The array's minimum is at most every entry. -/
theorem reduce_min_le [Subsingleton t.Idx] (x : s.Idx → Ideal .f32) (init : u.Idx → Ideal .f32)
    (h : s.ReducesTo axes t) (hu : 0 < u.numel) (j : t.Idx) (i : s.Idx) :
    Host.reduce (FloatOps.minimumf (F := Ideal) (φ := .f32)) x init h hu j ≤ x i := by
  rw [reduce_min_eq_fold]
  exact (Finset.fold_min_le _).2 (Or.inr ⟨i, Finset.mem_univ i, le_rfl⟩)

/-- The maximum, from −∞, of an array with an entry and with every entry real is real. -/
theorem reduce_max_real [Subsingleton t.Idx] (x : s.Idx → Ideal .f32) (init : u.Idx → Ideal .f32)
    (h : s.ReducesTo axes t) (hu : 0 < u.numel) (j : t.Idx) (hinit : init (Shape.Idx.first hu) = ⊥)
    (hx : ∀ i, x i ≠ ⊤ ∧ x i ≠ ⊥) (i0 : s.Idx) :
    Host.reduce (FloatOps.maximumf (F := Ideal) (φ := .f32)) x init h hu j ≠ ⊤
      ∧ Host.reduce (FloatOps.maximumf (F := Ideal) (φ := .f32)) x init h hu j ≠ ⊥ := by
  refine ⟨?_, fun e => (hx i0).2 (le_bot_iff.1 (e ▸ le_reduce_max x init h hu j i0))⟩
  rw [reduce_max_eq_fold, hinit]
  exact ((Finset.fold_max_lt _).2 ⟨bot_lt_top, fun i _ => lt_top_iff_ne_top.2 (hx i).1⟩).ne

/-- The minimum, from +∞, of an array with an entry and with every entry real is real. -/
theorem reduce_min_real [Subsingleton t.Idx] (x : s.Idx → Ideal .f32) (init : u.Idx → Ideal .f32)
    (h : s.ReducesTo axes t) (hu : 0 < u.numel) (j : t.Idx) (hinit : init (Shape.Idx.first hu) = ⊤)
    (hx : ∀ i, x i ≠ ⊤ ∧ x i ≠ ⊥) (i0 : s.Idx) :
    Host.reduce (FloatOps.minimumf (F := Ideal) (φ := .f32)) x init h hu j ≠ ⊤
      ∧ Host.reduce (FloatOps.minimumf (F := Ideal) (φ := .f32)) x init h hu j ≠ ⊥ := by
  refine ⟨fun e => (hx i0).1 (top_le_iff.1 (e ▸ reduce_min_le x init h hu j i0)), ?_⟩
  rw [reduce_min_eq_fold, hinit]
  exact ((Finset.lt_fold_min _).2 ⟨bot_lt_top, fun i _ => bot_lt_iff_ne_bot.2 (hx i).2⟩).ne'

/-- The magnitude max(y, −y) of a real is real. -/
theorem abs_real (y : EReal) (hy : y ≠ ⊤ ∧ y ≠ ⊥) : max y (-y) ≠ ⊤ ∧ max y (-y) ≠ ⊥ := by
  obtain ⟨r, rfl⟩ : ∃ r : ℝ, y = r := ⟨y.toReal, (EReal.coe_toReal hy.1 hy.2).symm⟩
  rcases max_choice (r : EReal) (-(r : EReal)) with e | e <;> rw [e]
  · exact ⟨EReal.coe_ne_top r, EReal.coe_ne_bot r⟩
  · rw [← EReal.coe_neg]; exact ⟨EReal.coe_ne_top _, EReal.coe_ne_bot _⟩

/-- The larger of two reals is real. -/
theorem max_real (a b : EReal) (ha : a ≠ ⊤ ∧ a ≠ ⊥) (hb : b ≠ ⊤ ∧ b ≠ ⊥) : max a b ≠ ⊤ ∧ max a b ≠ ⊥ := by
  rcases max_choice a b with e | e <;> rw [e]
  exacts [ha, hb]

/-- If the larger of |lo| and |hi| is 0, everything between lo and hi is 0. -/
theorem eq_zero_of_maxAbs_eq_zero {ι : Type} (lo hi : EReal) (x : ι → EReal) (hlo : ∀ i, lo ≤ x i) (hhi : ∀ i, x i ≤ hi)
    (h : max (max lo (-lo)) (max hi (-hi)) = 0) (i : ι) : x i = 0 := by
  have h1 : -lo ≤ 0 := ((le_max_right lo (-lo)).trans (le_max_left _ _)).trans h.le
  have h2 : hi ≤ 0 := ((le_max_left hi (-hi)).trans (le_max_right _ _)).trans h.le
  have h3 : 0 ≤ lo := by have := EReal.neg_le.1 h1; rwa [neg_zero] at this
  exact le_antisymm ((hhi i).trans h2) (h3.trans (hlo i))

/-- The test |x| < +∞ answers 1 exactly for the reals. -/
theorem real_of_abs_lt_inf (x : EReal)
    (h : Ideal.cmp .olt (max x (-x)) (Ideal.ofBits .f32 0x7F800000#32) = 1#1) : x ≠ ⊤ ∧ x ≠ ⊥ := by
  rw [ofBits_pos_inf] at h
  have hlt : max x (-x) < ⊤ := by
    by_contra hn
    simp [Ideal.cmp, hn] at h
  constructor
  · rintro rfl; exact absurd hlt (by simp)
  · rintro rfl; exact absurd hlt (by simp)

end Cert.LibExtrema

end
-- ==== Proof.PayCls.lean ====
/- The kernel body's cross-entropy accumulator update, read at its one entry. -/
import proofs.«403327_j23201413333226_3_alg».proof.Proof.Gen.KernelIdeal.Skeleton
import proofs.«403327_j23201413333226_3_alg».proof.Proof.Spec
import proofs.«403327_j23201413333226_3_alg».proof.Proof.LibColumn
import proofs.«403327_j23201413333226_3_alg».proof.Proof.LibExtrema
import Idealize.ShloMosaic.Lib.Pipeline.Value
import Idealize.ShloMosaic.Lib.ValueLayout
import Idealize.ShloMosaic.PureOps.Ideal.Laws

noncomputable section

open Idealize.ShloMosaic Idealize.ShloMosaic.ValueIdx

namespace Cert.Loss

open Cert.KernelIdeal Cert.KernelIdeal.Gen

/-- The index a reduction over the class axis inserts is (row, class). -/
theorem lift_row (h : S1024x1000.Reduces [1] S1024) (i : Fin 1024) (k : Fin 1000) :
    h.lift (ix1 i) k = ix2 i k := by
  funext c
  match c with
  | ⟨0, _⟩ => exact Fin.ext rfl
  | ⟨1, _⟩ => exact Fin.ext rfl

/-- The index a reduction over the row axis of a column inserts is (row, 0). -/
theorem lift_col (h : S1024x1.Reduces [0] S1) (u : Fin 1) (k : Fin 1024) :
    h.lift (ix1 u) k = ix2 k u := by
  funext c
  match c with
  | ⟨0, _⟩ => exact Fin.ext rfl
  | ⟨1, _⟩ => exact Fin.ext rfl

/-- A row-wise maximum from −∞, read at row i, is the row's maximum. -/
theorem rowmax_apply (v : FVec Ideal S1024x1000 .f32) (h : S1024x1000.Reduces [1] S1024)
    (hφ : FKind.Formats .f32) (hacc : (0xFF800000#32 : BitVec 32) = FKind.maximumf.neutral .f32 hφ) (i : Fin 1024) :
    multiReduction (F := Ideal) .maximumf [1] S1024 v 0xFF800000#32 h hφ hacc (ix1 i)
      = rowMax (fun j => v (ix2 i j)) := by
  refine (Ideal.multiReduction_maximumf_single v _ h hφ hacc (ix1 i)).trans ?_
  unfold rowMax
  have e : (v ∘ h.lift (ix1 i)) = fun j : Fin 1000 => v (ix2 i j) := funext fun k => congrArg v (lift_row h i k)
  rw [e]
  exact congrArg (fun b => (Finset.univ : Finset (Fin 1000)).fold max b fun j => v (ix2 i j)) Cert.LibExtrema.ofBits_neg_inf

/-- A row-wise sum, read at row i, is the sum over the row. -/
theorem rowsum_apply (v : FVec Ideal S1024x1000 .f32) (h : S1024x1000.Reduces [1] S1024)
    (hφ : FKind.Formats .f32) (hacc : (0x00000000#32 : BitVec 32) = FKind.add.neutral .f32 hφ) (i : Fin 1024) :
    multiReduction (F := Ideal) .add [1] S1024 v 0x00000000#32 h hφ hacc (ix1 i)
      = ∑ j : Fin 1000, v (ix2 i j) := by
  refine (Ideal.multiReduction_add_single v _ h hφ hacc (ix1 i)).trans ?_
  exact Finset.sum_congr rfl fun k _ => congrArg v (lift_row h i k)

/-- A sum over the rows of a column, read at its one index, is the sum of the column's entries. -/
theorem colsum_apply (v : FVec Ideal S1024x1 .f32) (h : S1024x1.Reduces [0] S1)
    (hφ : FKind.Formats .f32) (hacc : (0x00000000#32 : BitVec 32) = FKind.add.neutral .f32 hφ) (u : Fin 1) :
    multiReduction (F := Ideal) .add [0] S1 v 0x00000000#32 h hφ hacc (ix1 u)
      = ∑ i : Fin 1024, v (ix2 i u) := by
  refine (Ideal.multiReduction_add_single v _ h hφ hacc (ix1 u)).trans ?_
  exact Finset.sum_congr rfl fun k _ => congrArg v (lift_col h u k)

/-- The class mask at (row, class): whether the class number is the row's label. -/
theorem mask_apply (lb : IVec S1024x1 32) (i : Fin 1024) (j : Fin 1000) :
    k0_pay5 (F := Ideal) lb (ix2 i j) = IntOp.cmpi .eq (BitVec.ofNat 32 j.val) (lb (ix2 i 0)) := by
  unfold k0_pay5
  show IntOp.cmpi .eq (iota .tc S1024x1000 32 [1] iota_S1024x1000_d1_w32 (ix2 i j))
      (broadcastTo S1024x1000 (shapeCast S1024x1 lb shapeCasts_S1024x1_S1024x1) broadcasts_S1024x1_S1024x1000 (ix2 i j)) = _
  rw [shapeCast_self, Cert.LibColumn.broadcastTo_a1_ab_apply, iota_single_apply]

/-- The row maximum stood up as a column, read at (i, u). -/
theorem maxcol_apply (v : FVec Ideal S1024x1000 .f32) (h : S1024x1000.Reduces [1] S1024)
    (hφ : FKind.Formats .f32) (hacc : (0xFF800000#32 : BitVec 32) = FKind.maximumf.neutral .f32 hφ)
    (hc : S1024.ShapeCasts S1024x1) (i : Fin 1024) (u : Fin 1) :
    shapeCast S1024x1 (multiReduction (F := Ideal) .maximumf [1] S1024 v 0xFF800000#32 h hφ hacc) hc (ix2 i u)
      = rowMax (fun j => v (ix2 i j)) :=
  (Cert.LibColumn.shapeCast_a_a1_apply _ hc i u).trans (rowmax_apply v h hφ hacc i)

/-- The row sum stood up as a column, read at (i, u). -/
theorem sumcol_apply (v : FVec Ideal S1024x1000 .f32) (h : S1024x1000.Reduces [1] S1024)
    (hφ : FKind.Formats .f32) (hacc : (0x00000000#32 : BitVec 32) = FKind.add.neutral .f32 hφ)
    (hc : S1024.ShapeCasts S1024x1) (i : Fin 1024) (u : Fin 1) :
    shapeCast S1024x1 (multiReduction (F := Ideal) .add [1] S1024 v 0x00000000#32 h hφ hacc) hc (ix2 i u)
      = ∑ j : Fin 1000, v (ix2 i j) :=
  (Cert.LibColumn.shapeCast_a_a1_apply _ hc i u).trans (rowsum_apply v h hφ hacc i)

/-- A select on "the class number is the label" between a value and the zero word's value is the `if`. -/
theorem pick_eq (n : ℕ) (l : BitVec 32) (x : EReal) :
    Scalar.select (IntOp.cmpi .eq (BitVec.ofNat 32 n) l) x (FloatOps.ofBits (F := Ideal) .f32 0x00000000#32)
      = if BitVec.ofNat 32 n = l then x else 0 := by
  rw [Ideal.ofBits_def, Ideal.ofBits_zero_f32]
  unfold Scalar.select IntOp.cmpi
  by_cases e : BitVec.ofNat 32 n = l
  · have hb : (BitVec.ofNat 32 n == l) = true := by simpa using e
    rw [if_pos e, hb]; rfl
  · have hb : (BitVec.ofNat 32 n == l) = false := by simpa using e
    rw [if_neg e, hb]; rfl

theorem pay_cls (xb : FVec Ideal S1024x1000 .f32) (lb : IVec S1024x1 32) (acc : FVec Ideal S1x1 .f32) :
    k0_pay6 (F := Ideal) xb lb acc
      = fun _ => acc (ix2 0 0) + ∑ i : Fin 1024, nllK (fun j => xb (ix2 i j)) (lb (ix2 i 0)) := by
  funext y
  obtain ⟨p, q, rfl⟩ : ∃ (p : Fin 1) (q : Fin 1), y = ix2 p q := ⟨y 0, y 1, eq_ix2 y⟩
  obtain rfl : p = 0 := Subsingleton.elim _ _
  obtain rfl : q = 0 := Subsingleton.elim _ _
  unfold k0_pay6
  rw [shapeCast_self, addf_apply, Cert.LibColumn.shapeCast_a_a1_apply]
  refine congrArg (acc (ix2 0 0) + ·) ((colsum_apply _ _ _ _ 0).trans ?_)
  refine Finset.sum_congr rfl fun i _ => ?_
  rw [subf_apply, addf_apply]
  unfold nllK
  refine congrArg₂ (· - ·) (congrArg₂ (· + ·) ?_ (maxcol_apply xb _ _ _ _ i 0)) ?_
  · show FloatOps.log _ = _
    rw [Ideal.log_def]
    refine congrArg Ideal.log ((sumcol_apply _ _ _ _ _ i 0).trans ?_)
    refine Finset.sum_congr rfl fun j _ => ?_
    show FloatOps.exp _ = _
    rw [Ideal.exp_def]
    refine congrArg Ideal.exp ?_
    rw [subf_apply, Cert.LibColumn.broadcastTo_a1_ab_apply]
    exact congrArg (xb (ix2 i j) - ·) (maxcol_apply xb _ _ _ _ i 0)
  · refine (sumcol_apply _ _ _ _ _ i 0).trans ?_
    refine Finset.sum_congr rfl fun j _ => ?_
    rw [select_apply, mask_apply, broadcast_apply]
    exact pick_eq j.val (lb (ix2 i 0)) (xb (ix2 i j))

end Cert.Loss

end
-- ==== Proof.PayCol.lean ====
/- The kernel body's margin accumulator update and its output block, read at an entry. -/
import proofs.«403327_j23201413333226_3_alg».proof.Proof.Gen.KernelIdeal.Skeleton
import proofs.«403327_j23201413333226_3_alg».proof.Proof.Spec
import proofs.«403327_j23201413333226_3_alg».proof.Proof.LibColumn
import Idealize.ShloMosaic.Lib.Pipeline.Value
import Idealize.ShloMosaic.Lib.ValueLayout
import Idealize.ShloMosaic.PureOps.Ideal.Laws

noncomputable section

open Idealize.ShloMosaic Idealize.ShloMosaic.ValueIdx

namespace Cert.Loss

open Cert.KernelIdeal Cert.KernelIdeal.Gen

namespace ColAux

/-! ## Words: equality of small numbers, and the one entry of a [1, 1] block -/

/-- Equality of two numbers below 2³² as 32-bit words is their equality. -/
theorem cmpi_eq_ofNat (n m : ℕ) (hn : n < 4294967296) (hm : m < 4294967296) :
    IntOp.cmpi .eq (BitVec.ofNat 32 n) (BitVec.ofNat 32 m) = if n = m then 1#1 else 0#1 := by
  unfold IntOp.cmpi
  by_cases h : n = m
  · subst h; simp
  · have hne : BitVec.ofNat 32 n ≠ BitVec.ofNat 32 m := by
      intro e
      have := congrArg BitVec.toNat e
      simp only [BitVec.toNat_ofNat] at this
      omega
    rw [if_neg h]
    show BitVec.ofBool (BitVec.ofNat 32 n == BitVec.ofNat 32 m) = 0#1
    rw [show (BitVec.ofNat 32 n == BitVec.ofNat 32 m) = false from beq_eq_false_iff_ne.mpr hne]
    rfl

/-- The one entry of a [1, 1] block, extracted at its position. -/
theorem extractAt_00 {α : Type} (v : S1x1.Idx → α) (h : ∀ a, (![0, 0] : Fin 2 → ℕ) a < S1x1.size a) :
    extractAt ![0, 0] v h = v (ix2 0 0) := by
  unfold extractAt
  refine congrArg v (funext fun d => ?_)
  match d with
  | ⟨0, _⟩ => rfl
  | ⟨1, _⟩ => rfl

/-! ## The one-hot product: its operand indices, its left entry, its value at (i, d) -/

/-- The contraction index of the product is its one coordinate, a class number. -/
def ce : dot_S1024x1000_S1000x512_S1024x512_1_0_0_1_n_n.contr.Idx ≃ Fin 1000 :=
  contrEquiv1 dot_S1024x1000_S1000x512_S1024x512_1_0_0_1_n_n 1000 rfl rfl

/-- The left operand's row coordinate is the result's row. -/
theorem lhs_D7_0 (j : S1024x512.Idx) (k : dot_S1024x1000_S1000x512_S1024x512_1_0_0_1_n_n.contr.Idx) :
    (dot_S1024x1000_S1000x512_S1024x512_1_0_0_1_n_n.lhsIdx j k 0).val = (j 0).val := by
  unfold DotDims.lhsIdx
  rw [dif_neg (by decide), dif_pos (by decide)]
  rfl

/-- The right operand's lane coordinate is the result's lane. -/
theorem rhs_D7_1 (j : S1024x512.Idx) (k : dot_S1024x1000_S1000x512_S1024x512_1_0_0_1_n_n.contr.Idx) :
    (dot_S1024x1000_S1000x512_S1024x512_1_0_0_1_n_n.rhsIdx j k 1).val = (j 1).val := by
  unfold DotDims.rhsIdx
  rw [dif_neg (by decide), dif_pos (by decide)]
  rfl

/-- The left operand's class coordinate is the contraction's coordinate. -/
theorem lhs_D7_1 (j : S1024x512.Idx) (k : Fin 1000) :
    (dot_S1024x1000_S1000x512_S1024x512_1_0_0_1_n_n.lhsIdx j (ce.symm k) 1).val = k.val :=
  (DotDims.lhsIdx_val_of_single _ (cl := 1) rfl j (ce.symm k)).trans (contrEquiv1_symm_val _ 1000 rfl rfl k)

/-- The right operand's class coordinate is the contraction's coordinate. -/
theorem rhs_D7_0 (j : S1024x512.Idx) (k : Fin 1000) :
    (dot_S1024x1000_S1000x512_S1024x512_1_0_0_1_n_n.rhsIdx j (ce.symm k) 0).val = k.val :=
  (DotDims.rhsIdx_val_of_single _ (cr := 0) rfl j (ce.symm k)).trans (contrEquiv1_symm_val _ 1000 rfl rfl k)

/-- The one-hot entry: class k's comparison with the row's label, widened and converted, is 1 or 0. -/
theorem onehot_apply (lb : IVec S1024x1 32) (i : Fin 1024) (k : Fin 1000) :
    (truncf .bf16 (sitofp (F := Ideal) .f32 (extui 32 (k0_pay5 (F := Ideal) lb) natLt_1_32)) bitsLt_bf16_f32
        : FVec Ideal S1024x1000 .bf16) (ix2 i k)
      = if BitVec.ofNat 32 k.val = lb (ix2 i 0) then (1 : EReal) else 0 := by
  show ((((IntOp.cmpi .eq (iota .tc S1024x1000 32 [1] iota_S1024x1000_d1_w32 (ix2 i k))
      (broadcastTo S1024x1000 (shapeCast S1024x1 lb shapeCasts_S1024x1_S1024x1) broadcasts_S1024x1_S1024x1000 (ix2 i k))).setWidth 32).toInt : ℝ) : EReal) = _
  rw [iota_single_apply, Cert.LibColumn.broadcastTo_a1_ab_apply, shapeCast_self]
  show ((((IntOp.cmpi .eq (BitVec.ofNat 32 k.val) (lb (ix2 i 0))).setWidth 32).toInt : ℝ) : EReal) = _
  unfold IntOp.cmpi
  by_cases h : BitVec.ofNat 32 k.val = lb (ix2 i 0)
  · rw [if_pos h, h]
    show ((((BitVec.ofBool (lb (ix2 i 0) == lb (ix2 i 0))).setWidth 32).toInt : ℝ) : EReal) = 1
    rw [beq_self_eq_true]
    have e : ((BitVec.ofBool true).setWidth 32).toInt = 1 := by decide
    rw [e]; simp
  · rw [if_neg h]
    show ((((BitVec.ofBool (BitVec.ofNat 32 k.val == lb (ix2 i 0))).setWidth 32).toInt : ℝ) : EReal) = 0
    rw [show (BitVec.ofNat 32 k.val == lb (ix2 i 0)) = false from beq_eq_false_iff_ne.mpr h]
    have e : ((BitVec.ofBool false).setWidth 32).toInt = 0 := by decide
    rw [e]; simp

/-- The one-hot product at (i, d): the class-mean entry picked by the row's label. -/
theorem pay7_apply (lb : IVec S1024x1 32) (mb : FVec Ideal S1000x512 .bf16) (i : Fin 1024) (d : Fin 512) :
    k0_pay7 (F := Ideal) lb mb (ix2 i d) = gathK mb (lb (ix2 i 0)) d := by
  unfold gathK
  show FloatOps.matmul dot_S1024x1000_S1000x512_S1024x512_1_0_0_1_n_n none
      (truncf .bf16 (sitofp (F := Ideal) .f32 (extui 32 (k0_pay5 (F := Ideal) lb) natLt_1_32)) bitsLt_bf16_f32)
      (shapeCast S1000x512 mb shapeCasts_S1000x512_S1000x512) (constant S1024x512 .f32 0x00000000#32) (ix2 i d) = _
  refine (Ideal.matmul_constant_zero_apply _ none _ _ (ix2 i d)).trans ?_
  rw [← Equiv.sum_comp ce.symm, shapeCast_self]
  refine Finset.sum_congr rfl fun k _ => ?_
  have hl : dot_S1024x1000_S1000x512_S1024x512_1_0_0_1_n_n.lhsIdx (ix2 i d) (ce.symm k) = ix2 i k := by
    funext a
    match a with
    | ⟨0, _⟩ => exact Fin.ext (lhs_D7_0 (ix2 i d) (ce.symm k))
    | ⟨1, _⟩ => exact Fin.ext (lhs_D7_1 (ix2 i d) k)
  have hr : dot_S1024x1000_S1000x512_S1024x512_1_0_0_1_n_n.rhsIdx (ix2 i d) (ce.symm k) = ix2 k d := by
    funext a
    match a with
    | ⟨0, _⟩ => exact Fin.ext (rhs_D7_0 (ix2 i d) k)
    | ⟨1, _⟩ => exact Fin.ext (rhs_D7_1 (ix2 i d) (ce.symm k))
  rw [hl, hr, onehot_apply]

/-! ## The two sums of the margin term: over a row's lanes, over the column's rows -/

/-- The index over row i with lane d inserted. -/
theorem lift_lane (h : S1024x512.Reduces [1] S1024) (i : Fin 1024) (d : Fin 512) :
    h.lift (ix1 i) d = ix2 i d := by
  funext c
  match c with
  | ⟨0, _⟩ => exact Fin.ext rfl
  | ⟨1, _⟩ => exact Fin.ext rfl

/-- The index over the one column entry with row i inserted. -/
theorem lift_row (h : S1024x1.Reduces [0] S1) (u : Fin 1) (i : Fin 1024) :
    h.lift (ix1 u) i = ix2 i (0 : Fin 1) := by
  funext c
  match c with
  | ⟨0, _⟩ => exact Fin.ext rfl
  | ⟨1, _⟩ => exact Fin.ext (by show (u : ℕ) = 0; omega)

/-- The row sum over the column: the sum of its 1024 entries. -/
theorem rowsum_apply (v : FVec Ideal S1024x1 .f32) (h : S1024x1.Reduces [0] S1) (hφ : FKind.Formats FTy.f32)
    (hacc : (0x00000000#32 : BitVec 32) = FKind.add.neutral .f32 hφ) :
    multiReduction .add [0] S1 v 0x00000000#32 h hφ hacc (ix1 0) = ∑ i : Fin 1024, v (ix2 i 0) := by
  refine (Ideal.multiReduction_add_single v _ h hφ hacc (ix1 0)).trans ?_
  show ∑ i : Fin 1024, v (h.lift (ix1 0) i) = _
  exact Finset.sum_congr rfl fun i _ => congrArg v (lift_row h 0 i)

/-- The lane sum of row i: the sum of its 512 entries. -/
theorem lanesum_apply (v : FVec Ideal S1024x512 .f32) (h : S1024x512.Reduces [1] S1024) (hφ : FKind.Formats FTy.f32)
    (hacc : (0x00000000#32 : BitVec 32) = FKind.add.neutral .f32 hφ) (i : Fin 1024) :
    multiReduction .add [1] S1024 v 0x00000000#32 h hφ hacc (ix1 i) = ∑ d : Fin 512, v (ix2 i d) := by
  refine (Ideal.multiReduction_add_single v _ h hφ hacc (ix1 i)).trans ?_
  show ∑ d : Fin 512, v (h.lift (ix1 i) d) = _
  exact Finset.sum_congr rfl fun d _ => congrArg v (lift_lane h i d)

end ColAux

open ColAux

/-- The margin accumulator's update: the accumulator plus the sum, over the tile's 1024 rows, of each row's margin term
    max(5 − ‖f_i − μ_{ℓ_i}‖, 0), the mean row picked by the one-hot product. -/
theorem pay_col (lb : IVec S1024x1 32) (mb : FVec Ideal S1000x512 .bf16) (fb : FVec Ideal S1024x512 .f32) (acc : FVec Ideal S1x1 .f32) :
    k0_pay1 (F := Ideal) (k0_pay7 (F := Ideal) lb mb) fb acc
      = fun _ => acc (ix2 0 0) + ∑ i : Fin 1024, colK (fun d => fb (ix2 i d)) mb (lb (ix2 i 0)) := by
  funext y
  obtain ⟨p, q, rfl⟩ : ∃ (p : Fin 1) (q : Fin 1), y = ix2 p q := ⟨y 0, y 1, eq_ix2 y⟩
  obtain rfl : p = 0 := Subsingleton.elim _ _
  obtain rfl : q = 0 := Subsingleton.elim _ _
  unfold k0_pay1
  simp only [shapeCast_self]
  rw [addf_apply, Cert.LibColumn.shapeCast_a_a1_apply]
  refine congrArg (acc (ix2 0 0) + ·) ?_
  refine (rowsum_apply _ _ _ _).trans ?_
  refine Finset.sum_congr rfl fun i _ => ?_
  show max (Ideal.ofBits .f32 0x40A00000#32 - Ideal.sqrt (shapeCast S1024x1
      (multiReduction .add [1] S1024 (mulf (subf fb (k0_pay7 (F := Ideal) lb mb)) (subf fb (k0_pay7 (F := Ideal) lb mb))) 0x00000000#32
        reduces_S1024x512_S1024 (.inl rfl) rfl) shapeCasts_S1024_S1024x1 (ix2 i 0)))
      (Ideal.ofBits .f32 0x00000000#32) = _
  rw [Cert.LibColumn.shapeCast_a_a1_apply, Ideal.ofBits_zero_f32]
  unfold colK c5
  refine congrArg (fun s => max (Ideal.ofBits .f32 0x40A00000#32 - Ideal.sqrt s) 0) ?_
  refine (lanesum_apply _ _ _ _ i).trans ?_
  refine Finset.sum_congr rfl fun d _ => ?_
  rw [mulf_apply, subf_apply, pay7_apply]

/-- The output block: the first accumulator at (0, 0), the second at (0, 1), zero elsewhere. -/
theorem pay_out (a b : FVec Ideal S1x1 .f32) (p : Fin 8) (q : Fin 128) :
    k0_pay2 (F := Ideal) a b (ix2 p q)
      = if p.val = 0 ∧ q.val = 0 then a (ix2 0 0) else if p.val = 0 ∧ q.val = 1 then b (ix2 0 0) else 0 := by
  unfold k0_pay2
  simp only [select_apply, broadcast_apply, andi, cmpi, extractAt_00]
  have h0 : iota .tc S8x128 32 [0] iota_S8x128_d0_w32 (ix2 p q) = BitVec.ofNat 32 p.val :=
    iota_single_apply _ _ _ _ _ _
  have h1 : iota .tc S8x128 32 [1] iota_S8x128_d1_w32 (ix2 p q) = BitVec.ofNat 32 q.val :=
    iota_single_apply _ _ _ _ _ _
  have hp := p.isLt
  have hq := q.isLt
  rw [h0, h1, show (0#32) = BitVec.ofNat 32 0 from rfl, show (1#32) = BitVec.ofNat 32 1 from rfl,
    cmpi_eq_ofNat _ _ (by omega) (by omega), cmpi_eq_ofNat _ _ (by omega) (by omega),
    cmpi_eq_ofNat _ _ (by omega) (by omega)]
  have hz : (FloatOps.ofBits (F := Ideal) FTy.f32 (BitVec.ofNat 32 0)) = (0 : EReal) := Ideal.ofBits_zero_f32
  rw [hz]
  by_cases e0 : p.val = 0 <;> by_cases e1 : q.val = 0 <;> by_cases e2 : q.val = 1 <;>
    simp [e0, e1, e2, IntOp.andi, Scalar.select]

/-- The first zeroed accumulator block is zero. -/
theorem pay_zero3 : k0_pay3 (F := Ideal) = fun _ => 0 := by
  funext i
  show shapeCast S1x1 (broadcast S1x1 (Scalar.ofBits (F := Ideal) .f32 0x00000000#32)) shapeCasts_S1x1_S1x1 i = 0
  rw [shapeCast_self]
  exact Ideal.ofBits_zero_f32

/-- The second zeroed accumulator block is zero. -/
theorem pay_zero4 : k0_pay4 (F := Ideal) = fun _ => 0 := by
  funext i
  show shapeCast S1x1 (broadcast S1x1 (Scalar.ofBits (F := Ideal) .f32 0x00000000#32)) shapeCasts_S1x1_S1x1 i = 0
  rw [shapeCast_self]
  exact Ideal.ofBits_zero_f32

end Cert.Loss

end
-- ==== Proof.Accum.lean ====
/- The two carried accumulators after each grid point are partial sums of the tiles' sums: after point `n` (core `n / 8`,
   position `n % 8` in the core's run) they hold the sums over tiles `8·(n/8) … n` of the per-row cross-entropy terms and of the
   per-row margin terms; so after a core's last point they hold the core's totals, and the output block written there carries
   them at (0, 0) and (0, 1). -/
import proofs.«403327_j23201413333226_3_alg».proof.Proof.Steps
import proofs.«403327_j23201413333226_3_alg».proof.Proof.Blocks
import proofs.«403327_j23201413333226_3_alg».proof.Proof.PayCls
import proofs.«403327_j23201413333226_3_alg».proof.Proof.PayCol
import proofs.«403327_j23201413333226_3_alg».proof.Proof.Spec
import proofs.«403327_j23201413333226_3_alg».proof.Proof.LibColumn

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Steps Cert.KernelIdeal.Blocks Cert.Loss

variable (m : (ℓ : Loc nD τ sig) → Buf (Elt Ideal) ℓ)

/-- The four argument arrays as the specification takes them. -/
abbrev aX (c : Dev nD) : SX.Idx → EReal := m ((c : Thread nD τ).loc main_arg0)
abbrev aF (c : Dev nD) : SF.Idx → EReal := m ((c : Thread nD τ).loc main_arg1)
abbrev aM (c : Dev nD) : SM.Idx → EReal := m ((c : Thread nD τ).loc main_arg2)
abbrev aL (c : Dev nD) : SL.Idx → BitVec 32 := m ((c : Thread nD τ).loc main_arg3)

theorem row_eq (t : Fin cfg0.N) (i : Fin 1024) : row (t.val * 1024 + i.val) = ⟨t.val * 1024 + i.val, row_lt t i⟩ :=
  Fin.ext (Nat.mod_eq_of_lt (row_lt t i))

/-- The label the body reads for row `i` of the tile at point `t` is the clipped label of row `1024·t + i`. -/
theorem label_eq (c : Dev nD) (t : Fin cfg0.N) (i : Fin 1024) :
    lb m c t (ix2 i 0) = lab (clipL (aL m c)) (t.val * 1024 + i.val) := by
  show (iblk m c 3 t : Vec Ideal S1024x1 .i32) (ix2 i 0) = _
  rw [lblk_apply, V_labels]
  unfold lab clipL
  rw [row_eq]
  exact Cert.LibColumn.shapeCast_a_a1_apply _ _ _ _

/-- The sum the body adds to the cross-entropy accumulator at point `t` is tile `t`'s. -/
theorem tile_cls (c : Dev nD) (t : Fin cfg0.N) :
    ∑ i : Fin 1024, nllK (fun j => xb m c t (ix2 i j)) (lb m c t (ix2 i 0)) = tileCls (aX m c) (clipL (aL m c)) t.val := by
  unfold tileCls
  refine Finset.sum_congr rfl fun i _ => ?_
  rw [label_eq m c t i]
  congr 1
  funext j
  show (iblk m c 0 t : Vec Ideal S1024x1000 .f32) (ix2 i j) = _
  rw [xblk_apply, V_main_arg0]
  unfold xrow
  rw [row_eq]

/-- The sum the body adds to the margin accumulator at point `t` is tile `t`'s. -/
theorem tile_col (c : Dev nD) (t : Fin cfg0.N) :
    ∑ i : Fin 1024, colK (fun d => fb m c t (ix2 i d)) (mb m c t) (lb m c t (ix2 i 0))
      = tileCol (aF m c) (aM m c) (clipL (aL m c)) t.val := by
  unfold tileCol
  refine Finset.sum_congr rfl fun i _ => ?_
  rw [label_eq m c t i]
  have hM : (mb m c t : SM.Idx → EReal) = aM m c := by
    funext y
    obtain ⟨p, q, rfl⟩ : ∃ (p : Fin 1000) (q : Fin 512), y = ix2 p q := ⟨y 0, y 1, eq_ix2 y⟩
    show (iblk m c 2 t : Vec Ideal S1000x512 .bf16) (ix2 p q) = _
    rw [mblk_apply, V_means]
    rfl
  rw [hM]
  congr 1
  funext d
  show (iblk m c 1 t : Vec Ideal S1024x512 .f32) (ix2 i d) = _
  rw [fblk_apply, V_main_arg1]
  unfold frow
  rw [row_eq]

/-- The partial sums after point `n`. -/
def accCls (c : Dev nD) (n : ℕ) : EReal :=
  ∑ k ∈ Finset.range (n % 8 + 1), tileCls (aX m c) (clipL (aL m c)) (8 * (n / 8) + k)
def accCol (c : Dev nD) (n : ℕ) : EReal :=
  ∑ k ∈ Finset.range (n % 8 + 1), tileCol (aF m c) (aM m c) (clipL (aL m c)) (8 * (n / 8) + k)

/-- At the first point of a core's run the accumulators restart: they hold the first tile's sums. -/
theorem first_acc (c : Dev nD) (t : Fin cfg0.N) (h0 : t.val % 8 = 0) :
    (outsAt0 m c t.val t.isLt).2.1 = (fun _ => accCls m c t.val) ∧ (outsAt0 m c t.val t.isLt).2.2 = (fun _ => accCol m c t.val) := by
  have h1 : ¬t.val % 8 = 7 := by omega
  obtain ⟨e1, e2⟩ := first_point m c t h0 h1
  have hone : t.val % 8 + 1 = 1 := by omega
  have hself : 8 * (t.val / 8) + 0 = t.val := by omega
  refine ⟨e1.trans ?_, e2.trans ?_⟩
  · rw [pay_cls (xb m c t) (lb m c t) (k0_pay3 (F := Ideal)), pay_zero3]
    funext _
    show (0 : EReal) + ∑ i : Fin 1024, nllK (fun j => xb m c t (ix2 i j)) (lb m c t (ix2 i 0)) = accCls m c t.val
    rw [tile_cls m c t, zero_add]
    unfold accCls
    rw [hone, Finset.sum_range_one, hself]
  · rw [pay_col (lb m c t) (mb m c t) (fb m c t) (k0_pay4 (F := Ideal)), pay_zero4]
    funext _
    show (0 : EReal) + ∑ i : Fin 1024, colK (fun d => fb m c t (ix2 i d)) (mb m c t) (lb m c t (ix2 i 0)) = accCol m c t.val
    rw [tile_col m c t, zero_add]
    unfold accCol
    rw [hone, Finset.sum_range_one, hself]

/-- At a later point of a core's run the accumulators take the point's tile on top of what the point before left. -/
theorem next_acc (c : Dev nD) (t : Fin cfg0.N) (h0 : ¬t.val % 8 = 0)
    (ih : prevCls m c t = (fun _ => accCls m c (t.val - 1)) ∧ prevCol m c t = (fun _ => accCol m c (t.val - 1))) :
    (outsAt0 m c t.val t.isLt).2.1 = (fun _ => accCls m c t.val) ∧ (outsAt0 m c t.val t.isLt).2.2 = (fun _ => accCol m c t.val) := by
  have key : (outsAt0 m c t.val t.isLt).2.1 = k0_pay6 (xb m c t) (lb m c t) (prevCls m c t)
      ∧ (outsAt0 m c t.val t.isLt).2.2 = k0_pay1 (k0_pay7 (lb m c t) (mb m c t)) (fb m c t) (prevCol m c t) := by
    by_cases h1 : t.val % 8 = 7
    · exact ⟨(last_point m c t h0 h1).1, (last_point m c t h0 h1).2.1⟩
    · exact middle_point m c t h0 h1
  obtain ⟨e1, e2⟩ := key
  have hq : (t.val - 1) / 8 = t.val / 8 := by omega
  have hr : (t.val - 1) % 8 + 1 = t.val % 8 := by omega
  have hself : 8 * (t.val / 8) + t.val % 8 = t.val := by omega
  refine ⟨e1.trans ?_, e2.trans ?_⟩
  · rw [ih.1, pay_cls (xb m c t) (lb m c t) _]
    funext _
    show accCls m c (t.val - 1) + ∑ i : Fin 1024, nllK (fun j => xb m c t (ix2 i j)) (lb m c t (ix2 i 0)) = accCls m c t.val
    rw [tile_cls m c t]
    unfold accCls
    rw [hq, hr, Finset.sum_range_succ, hself]
  · rw [ih.2, pay_col (lb m c t) (mb m c t) (fb m c t) _]
    funext _
    show accCol m c (t.val - 1) + ∑ i : Fin 1024, colK (fun d => fb m c t (ix2 i d)) (mb m c t) (lb m c t (ix2 i 0)) = accCol m c t.val
    rw [tile_col m c t]
    unfold accCol
    rw [hq, hr, Finset.sum_range_succ, hself]

/-- So after every point the accumulators hold the partial sums. -/
theorem acc_eq (c : Dev nD) : ∀ (n : ℕ) (h : n < cfg0.N),
    (outsAt0 m c n h).2.1 = (fun _ => accCls m c n) ∧ (outsAt0 m c n h).2.2 = (fun _ => accCol m c n)
  | 0, h => first_acc m c ⟨0, h⟩ (Nat.zero_mod 8)
  | n + 1, h => by
    by_cases h0 : (n + 1) % 8 = 0
    · exact first_acc m c ⟨n + 1, h⟩ h0
    · exact next_acc m c ⟨n + 1, h⟩ h0 (acc_eq c n (Nat.lt_of_succ_lt h))

/-- At a core's last point the output block is written from the accumulators as they then stand. -/
theorem out_eq (c : Dev nD) (t : Fin cfg0.N) (h1 : t.val % 8 = 7) :
    (outsAt0 m c t.val t.isLt).1 = k0_pay2 (F := Ideal) (fun _ => accCls m c t.val) (fun _ => accCol m c t.val) := by
  have h0 : ¬t.val % 8 = 0 := by omega
  obtain ⟨e1, e2, e3⟩ := last_point m c t h0 h1
  rw [e3, ← e1, ← e2, (acc_eq m c t.val t.isLt).1, (acc_eq m c t.val t.isLt).2]

end Cert.KernelIdeal.Accum

end
-- ==== Proof.Final.lean ====
/- The kernel's run read to its result: the output array after the region holds each core's two totals at its first row's
   first two entries; the host lines after the region pick those four entries, add the cores' totals, divide by the batch size
   and combine the two terms with their weights. -/
import proofs.«403327_j23201413333226_3_alg».proof.Proof.Accum
import Idealize.ShloMosaic.Lib.StableHlo.Run

noncomputable section

open Idealize.ShloMosaic Idealize.ShloMosaic.TcCoe Idealize.SL.Sem Idealize.ShloMosaic.ValueIdx
open Idealize.ShloMosaic.Pipeline (Dat)
open Idealize.ShloMosaic.StableHlo

namespace Cert.KernelIdeal.Final

open Cert.KernelIdeal Cert.KernelIdeal.Gen Cert.KernelIdeal.Steps Cert.KernelIdeal.Blocks Cert.KernelIdeal.Accum Cert.Loss

variable (m : (ℓ : Loc nD τ sig) → Buf (Elt Ideal) ℓ) (ρ : Dev nD → PrngReg)

/-- The output array after the region: row `8·c` carries core `c`'s totals at its entries 0 and 1; everything else is 0. -/
def outArr (c : Dev nD) : Vec Ideal S16x128 .f32 := fun y =>
  if (y 0).val % 8 = 0 ∧ (y 1).val = 0 then accCls m c (8 * ((y 0).val / 8) + 7)
  else if (y 0).val % 8 = 0 ∧ (y 1).val = 1 then accCol m c (8 * ((y 0).val / 8) + 7)
  else 0

/-- What a core's last point writes back is its block of that array. -/
theorem flushed_eq (c : Dev nD) (t : Fin cfg0.N) (hf : (cfg0.win 4).flush t = true) :
    (dats m 0 c).flushed 4 t = ((cfg0.win 4).blk t).view.read (Elt Ideal) (outArr m c) := by
  have h7 : t.val % 8 = 7 := (flush0_4 t).mp hf
  show (cfg0.win 4).cut (grid0.coords t) ((dats m 0 c).after 4 t) = _
  rw [after0_4, out_eq m c t h7]
  funext j
  obtain ⟨p, q, rfl⟩ : ∃ (p : Fin 8) (q : Fin 128), j = ix2 p q := ⟨j 0, j 1, eq_ix2 j⟩
  rw [View.read_apply]
  show k0_pay2 (F := Ideal) _ _ (ix2 p q) = outArr m c (((cfg0.win 4).blk t).view.emb (ix2 p q))
  rw [pay_out]
  have e0 : ((((cfg0.win 4).blk t).view.emb (ix2 p q)) 0).val = t.val / 8 * 8 + p.val := by
    show win0_4.index t 0 * 8 + 1 * p.val = _
    rw [(idx_rows t).2.2.2.2.1]; omega
  have e1 : ((((cfg0.win 4).blk t).view.emb (ix2 p q)) 1).val = q.val := by
    show win0_4.index t 1 * 128 + 1 * q.val = _
    rw [(idx_rows t).2.2.2.2.2]; omega
  unfold outArr
  simp only [e0, e1]
  have hp := p.isLt
  have hm : (t.val / 8 * 8 + p.val) % 8 = p.val := by omega
  have hd : 8 * ((t.val / 8 * 8 + p.val) / 8) + 7 = t.val := by omega
  rw [hm, hd]

/-- Every entry of the output array is in the block some core's last point writes back. -/
theorem cover (i : S16x128.Idx) : ∃ t : Fin cfg0.N, (cfg0.win 4).flush t = true ∧ i ∈ ((cfg0.win 4).blk t).view.set := by
  have hN : cfg0.N = 16 := N_0
  have h0 : (i 0 : Nat) < 16 := (i 0).isLt
  have h1 : (i 1 : Nat) < 128 := (i 1).isLt
  have ht : 8 * ((i 0 : Nat) / 8) + 7 < cfg0.N := by omega
  have hv : (⟨8 * ((i 0 : Nat) / 8) + 7, ht⟩ : Fin cfg0.N).val = 8 * ((i 0 : Nat) / 8) + 7 := rfl
  refine ⟨⟨8 * ((i 0 : Nat) / 8) + 7, ht⟩, (flush0_4 _).mpr (by rw [hv]; omega), ?_⟩
  show i ∈ ((View.whole main_v3).slice (win0_4.rect ⟨8 * ((i 0 : Nat) / 8) + 7, ht⟩)).set
  rw [View.set_slice_whole, Rect.mem_set_unit]
  intro a
  match a with
  | ⟨0, _⟩ =>
    show win0_4.index ⟨8 * ((i 0 : Nat) / 8) + 7, ht⟩ 0 * 8 ≤ (i 0 : Nat) ∧ (i 0 : Nat) < win0_4.index ⟨8 * ((i 0 : Nat) / 8) + 7, ht⟩ 0 * 8 + 8
    rw [(idx_rows ⟨8 * ((i 0 : Nat) / 8) + 7, ht⟩).2.2.2.2.1, hv]
    omega
  | ⟨1, _⟩ =>
    show win0_4.index ⟨8 * ((i 0 : Nat) / 8) + 7, ht⟩ 1 * 128 ≤ (i 1 : Nat) ∧ (i 1 : Nat) < win0_4.index ⟨8 * ((i 0 : Nat) / 8) + 7, ht⟩ 1 * 128 + 128
    rw [(idx_rows ⟨8 * ((i 0 : Nat) / 8) + 7, ht⟩).2.2.2.2.2]
    omega

/-- So the output array ends holding it. -/
theorem final_out (c : Dev nD) : (dats m 0 c).arrAt 4 cfg0.N = outArr m c :=
  (dats m 0 c).arrAt_eq_of_cover 4 (outArr m c) (flushed_eq m c) cover

/-- The array the host lines after the region read is that output array. -/
theorem arr_out (c : Dev nD) :
    (Pipeline.withArrays (cfgs 0).spec c (V0 m c) (fun w => (dats m 0 c).arrAt w (cfgs 0).N) (Proc.devRef .tc main_v3) : Vec Ideal S16x128 .f32)
      = outArr m c :=
  (Pipeline.withArrays_arr spec0 launch0.win.arr_inj c _ _ 4).trans (final_out m c)

/-- The host lines after the region, as one function of the output array: the entries (0,0) and (8,0) added and divided by the
    batch size, weighted 1; the entries (0,1) and (8,1) likewise, weighted 0.1. -/
def tailFn (A : Vec Ideal S16x128 .f32) : Vec Ideal S_ .f32 :=
  addf
    (mulf (constant (F := Ideal) S_ .f32 0x3F800000#32)
      (Host.divf
        (addf
          (addf (constant (F := Ideal) S_ .f32 0x00000000#32)
            (shapeCast S_ (extractStridedSlice S1x1 ![0, 0] A slices_S16x128_S1x1_0_0) shapeCasts_S1x1_S_))
          (shapeCast S_ (extractStridedSlice S1x1 ![8, 0] A slices_S16x128_S1x1_8_0) shapeCasts_S1x1_S_))
        (constant (F := Ideal) S_ .f32 0x46800000#32)))
    (mulf (constant (F := Ideal) S_ .f32 0x3DCCCCCD#32)
      (Host.divf
        (addf
          (addf (constant (F := Ideal) S_ .f32 0x00000000#32)
            (shapeCast S_ (extractStridedSlice S1x1 ![0, 1] A slices_S16x128_S1x1_0_1) shapeCasts_S1x1_S_))
          (shapeCast S_ (extractStridedSlice S1x1 ![8, 1] A slices_S16x128_S1x1_8_1) shapeCasts_S1x1_S_))
        (constant (F := Ideal) S_ .f32 0x46800000#32)))

/-- The program's result after the host lines is that function of the output array. -/
theorem tail_eq (c : Dev nD) :
    (Pipeline.afterTail₀ cfgs (dats m) 0 (V0 m) [hostOps1] c main_v20 : Vec Ideal S_ .f32) = tailFn (outArr m c) := by
  unfold Pipeline.afterTail₀
  show StableHlo.after hostOps1 _ (Proc.devRef .tc main_v20) = _
  after_results_simp
  rw [arr_out m c]
  rfl

/-- An entry picked out of the array by a one-entry slice and a cast to a scalar. -/
theorem pick_entry (A : Vec Ideal S16x128 .f32) (off : Fin 2 → Nat) (h : S16x128.Slices off S1x1) (p : Fin 16) (q : Fin 128)
    (hp : off 0 = p.val) (hq : off 1 = q.val) (i : S_.Idx) :
    shapeCast S_ (extractStridedSlice S1x1 off A h) shapeCasts_S1x1_S_ i = A (ix2 p q) := by
  unfold shapeCast
  generalize Shape.reshapeEquiv shapeCasts_S1x1_S_ i = j
  refine (extractStridedSlice_apply off A h j (ix2 p q) fun a => ?_)
  match a with
  | ⟨0, _⟩ =>
    show p.val = off 0 + (j 0).val
    have : (j 0).val < 1 := (j 0).isLt
    omega
  | ⟨1, _⟩ =>
    show q.val = off 1 + (j 1).val
    have : (j 1).val < 1 := (j 1).isLt
    omega

/-- The four entries the host lines read are the two cores' totals. -/
theorem out_cls0 (c : Dev nD) : outArr m c (ix2 (0 : Fin 16) (0 : Fin 128)) = coreCls (aX m c) (clipL (aL m c)) 0 := by
  unfold outArr
  rw [if_pos (by decide)]
  rfl
theorem out_cls1 (c : Dev nD) : outArr m c (ix2 (8 : Fin 16) (0 : Fin 128)) = coreCls (aX m c) (clipL (aL m c)) 1 := by
  unfold outArr
  rw [if_pos (by decide)]
  rfl
theorem out_col0 (c : Dev nD) : outArr m c (ix2 (0 : Fin 16) (1 : Fin 128)) = coreCol (aF m c) (aM m c) (clipL (aL m c)) 0 := by
  unfold outArr
  rw [if_neg (by decide), if_pos (by decide)]
  rfl
theorem out_col1 (c : Dev nD) : outArr m c (ix2 (8 : Fin 16) (1 : Fin 128)) = coreCol (aF m c) (aM m c) (clipL (aL m c)) 1 := by
  unfold outArr
  rw [if_neg (by decide), if_pos (by decide)]
  rfl

/-- The program's result is the loss in the kernel's shape. -/
theorem tail_value (c : Dev nD) :
    tailFn (outArr m c) = fun _ => kernelLoss (aX m c) (aF m c) (aM m c) (aL m c) := by
  funext i
  unfold tailFn
  simp only [addf_apply, mulf_apply, constant_apply, Host.divf, Ideal.hostDivf_def,
    pick_entry (outArr m c) ![0, 0] slices_S16x128_S1x1_0_0 0 0 rfl rfl,
    pick_entry (outArr m c) ![8, 0] slices_S16x128_S1x1_8_0 8 0 rfl rfl,
    pick_entry (outArr m c) ![0, 1] slices_S16x128_S1x1_0_1 0 1 rfl rfl,
    pick_entry (outArr m c) ![8, 1] slices_S16x128_S1x1_8_1 8 1 rfl rfl,
    Ideal.ofBits_zero_f32, zero_add]
  rw [out_cls0, out_cls1, out_col0, out_col1]
  rfl

/-- The kernel's run, read: its one output is the loss in the kernel's shape; the arguments end unchanged. -/
theorem run : θ_run defs (onTc (τ := τ) (main (F := Ideal))) ⟨m, fun _ => 0, ρ⟩ fun r => ∀ c : Dev nD,
      r.2.mem ((c.tc : Thread nD τ).loc main_v20) = (fun _ => kernelLoss (aX m c) (aF m c) (aM m c) (aL m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v20 (Pipeline.mem_restRefs_of main_v20 (by decide) (by decide))).trans ((tail_eq m c).trans (tail_value m c)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelIdeal.Final

end
-- ==== Proof.RefCls.lean ====
/- The reference's cross-entropy term read off its run: minus the mean of the picked log-probabilities. -/
import proofs.«403327_j23201413333226_3_alg».proof.Proof.RefRead
import proofs.«403327_j23201413333226_3_alg».proof.Proof.Spec
import proofs.«403327_j23201413333226_3_alg».proof.Proof.LibExtrema
import Idealize.ShloMosaic.PureOps.Reduce

noncomputable section

open Idealize.ShloMosaic Idealize.ShloMosaic.ValueIdx

namespace Cert.Loss

open Cert.ReferenceIdeal Cert.ReferenceIdeal.Gen Cert.ReferenceIdeal.ReadP

namespace RefCls

/-! ## The log-softmax of one row -/

/-- The shape condition of a reduction of [16384, 1000] over its axis 1, in the form that names the indices over a
    result index. -/
theorem red1 : S16384x1000.Reduces [1] S16384 := by decide

/-- Over result index r, the index with coordinate k on the reduced axis is (r, k). -/
theorem lift1 (r : Fin 16384) (k : Fin 1000) :
    red1.lift (ix1 r) k = ix2 r k := by
  funext c
  refine Fin.ext ?_
  match c with
  | ⟨0, _⟩ => rfl
  | ⟨1, _⟩ => rfl

/-- The maximum-reduce over the classes, from −∞, at row r: the row's maximum. -/
theorem rowmax_read (X : SX.Idx → EReal) (r : Fin 16384) :
    val_main_call0_v0 (F := Ideal) X (ix1 r) = rowMax (fun j => X (ix2 r j)) := by
  unfold val_main_call0_v0
  rw [Host.reduce_eq_fold_single _ X _ reducesTo_S16384x1000_S16384_d1 red1 h_S_ (ix1 r)]
  rw [val_main_call0_cst_apply, Ideal.ofBits_def, Cert.LibExtrema.ofBits_neg_inf]
  unfold rowMax
  refine Finset.fold_congr ?_
  intro k _
  exact congrArg X (lift1 r k)

/-- The larger of −∞ and that maximum is the maximum. -/
theorem m_read (X : SX.Idx → EReal) (r : Fin 16384) :
    val_main_call0_v2 (F := Ideal) X (ix1 r) = rowMax (fun j => X (ix2 r j)) := by
  rw [val_main_call0_v2_apply, val_main_call0_v1_apply, val_main_call0_cst_0_apply, rowmax_read,
    Ideal.maximumf_def, Ideal.ofBits_def, Cert.LibExtrema.ofBits_neg_inf]
  exact max_bot_left _

/-- The shifted logit at (r, j): X(r, j) minus row r's maximum. -/
theorem shift_read (X : SX.Idx → EReal) (r : Fin 16384) (j : Fin 1000) :
    val_main_call0_v5 (F := Ideal) X (ix2 r j) = X (ix2 r j) - rowMax (fun j => X (ix2 r j)) := by
  rw [val_main_call0_v5_apply, val_main_call0_v4_apply, val_main_call0_v3_apply, Ideal.subf_def]
  have e : idx_main_call0_v3 (idx_main_call0_v4 (ix2 r j)) = ix1 r := by
    funext a; match a with | ⟨0, _⟩ => rfl
  rw [e, m_read]

/-- The sum over the classes of the exponentials of row r's shifted logits. -/
theorem rowsum_read (X : SX.Idx → EReal) (r : Fin 16384) :
    val_main_call0_v7 (F := Ideal) X (ix1 r)
      = ∑ k : Fin 1000, Ideal.exp (X (ix2 r k) - rowMax (fun j => X (ix2 r j))) := by
  rw [val_main_call0_v7_apply, val_main_call0_cst_1_apply, Ideal.ofBits_def, Ideal.ofBits_zero_f32, zero_add]
  refine Finset.sum_congr rfl fun k _ => ?_
  have e : idx_main_call0_v7 (ix1 r) k = ix2 r k := by
    funext a; match a with | ⟨0, _⟩ => rfl | ⟨1, _⟩ => rfl
  rw [e, val_main_call0_v6_apply, Ideal.hostUnary_exp_def, shift_read]

/-- The log-softmax at (r, j): entry j of the log-softmax of row r. -/
theorem logp_read (X : SX.Idx → EReal) (r : Fin 16384) (j : Fin 1000) :
    val_main_v0 (F := Ideal) X (ix2 r j) = logp (fun j => X (ix2 r j)) j := by
  rw [val_main_v0_apply, val_main_call0_v10_apply, val_main_call0_v9_apply, val_main_call0_v8_apply,
    Ideal.subf_def, Ideal.hostUnary_log_def, shift_read]
  have e : idx_main_call0_v8 (idx_main_call0_v10 (ix2 r j)) = ix1 r := by
    funext a; match a with | ⟨0, _⟩ => rfl
  rw [e, rowsum_read]
  rfl

/-! ## The label of one row: wrapped, and tested for range -/

/-- The start index of row r, as the entry (r, u, v) of the [16384, 1, 1] array: the label wrapped if negative. -/
theorem wrap_read (L : SL.Idx → BitVec 32) (r : Fin 16384) (u v : Fin 1) :
    val_main_call1_v5 (F := Ideal) L (ix3 r u v) = wrapL (L (ix1 r)) := by
  rw [val_main_call1_v5_apply]
  have e : idx_main_call1_v5 (ix3 r u v) = ix2 r (0 : Fin 1) := by
    funext a
    match a with
    | ⟨0, _⟩ =>
      refine Fin.ext ?_
      show ((r.val * 1 + u.val) * 1 + v.val) / 1 = r.val
      have hu : u.val = 0 := by omega
      have hv : v.val = 0 := by omega
      rw [hu, hv]; omega
    | ⟨1, _⟩ => rfl
  rw [e, val_main_call1_v4_apply, val_main_call1_v1_apply, val_main_call1_v3_apply, val_main_v1_apply,
    val_main_call1_v0_apply, val_main_call1_c_apply, val_main_call1_v2_apply, val_main_call1_c_0_apply]
  have e1 : idx_main_v1 (ix2 r (0 : Fin 1)) = ix1 r := by
    funext a; match a with | ⟨0, _⟩ => rfl
  rw [e1]
  rfl

/-- The shape condition of a reduction of [16384, 1, 1] over its axis 2. -/
theorem red2 : S16384x1x1.Reduces [2] S16384x1 := by decide

/-- Over result index (r, u), the index with coordinate k on the reduced axis is (r, u, k). -/
theorem lift2 (r : Fin 16384) (u k : Fin 1) :
    red2.lift (ix2 r u) k = ix3 r u k := by
  funext c
  refine Fin.ext ?_
  match c with
  | ⟨0, _⟩ => rfl
  | ⟨1, _⟩ => rfl
  | ⟨2, _⟩ => rfl

/-- A bit and-ed with 1 is the bit. -/
theorem and_one_bit (b : BitVec 1) : IntOp.andi b 1#1 = b := by
  rcases BitVec.eq_zero_or_eq_one b with h | h <;> subst h <;> rfl

/-- A fold over the one coordinate of an axis of size one: the operation applied once. -/
theorem fold_fin_one {α : Type} (op : α → α → α) [Std.Commutative op] [Std.Associative op] (b : α) (f : Fin 1 → α) :
    (Finset.univ : Finset (Fin 1)).fold op b f = op (f 0) b := by
  rw [show (Finset.univ : Finset (Fin 1)) = {0} from rfl, Finset.fold_singleton]

/-- The and-reduce over the size-one axis, from 1, at (r, u): whether row r's wrapped label is in [0, 999]. -/
theorem valid_read (L : SL.Idx → BitVec 32) (r : Fin 16384) (u : Fin 1) :
    val_main_call1_v12 (F := Ideal) L (ix2 r u) = validL (L (ix1 r)) := by
  unfold val_main_call1_v12
  rw [Host.reduce_eq_fold_single _ _ _ reducesTo_S16384x1x1_S16384x1_d2 red2 h_S_ (ix2 r u)]
  rw [val_main_call1_c_3_apply]
  refine (fold_fin_one _ _ _).trans ?_
  rw [and_one_bit]
  refine (congrArg (val_main_call1_v11 (F := Ideal) L) (lift2 r u 0)).trans ?_
  rw [val_main_call1_v11_apply, val_main_call1_v7_apply, val_main_call1_v10_apply, wrap_read,
    val_main_call1_v6_apply, val_main_call1_c_2_apply, val_main_call1_v9_apply, val_main_call1_v8_apply,
    val_main_call1_c_1_apply]
  rfl

/-! ## The batched gather along the class axis, read at an index

Operand [16384, 1000], start indices [16384, 1, 1], result [16384, 1]: operand axis 0 is a batching axis paired with
axis 0 of the start indices, operand axis 1 is collapsed and is the one axis the start index names, the index vector
lies on axis 2, the slices are [1, 1]. -/

/-- The gather at (r, u): row r of the operand at the class c, where c is the start index at (r, u, 0) read signed and
    clamped into [0, 999]. -/
theorem gather_read {α : Type} (x : S16384x1000.Idx → α) (idx : IVec S16384x1x1 32) (r : Fin 16384) (u : Fin 1)
    (c : Fin 1000) (hc : c.val = min (idx (ix3 r u (0 : Fin 1))).toInt.toNat 999) :
    Host.gather gather_S16384x1000_S16384x1x1_S16384x1_n_1_0_0_1_2_11 x idx (ix2 r u) = x (ix2 r c) := by
  unfold Host.gather
  congr 1
  funext a
  refine Fin.ext ?_
  match a with
  | ⟨0, _⟩ =>
    show gather_S16384x1000_S16384x1x1_S16384x1_n_1_0_0_1_2_11.start (ix2 r u) idx 0
        + gather_S16384x1000_S16384x1x1_S16384x1_n_1_0_0_1_2_11.batchCoord (ix2 r u) 0
        + gather_S16384x1000_S16384x1x1_S16384x1_n_1_0_0_1_2_11.offCoord (ix2 r u) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16384x1000_S16384x1x1_S16384x1_n_1_0_0_1_2_11.operandBatchingDims from
      List.mem_singleton.mpr rfl)]
    rfl
  | ⟨1, _⟩ =>
    show gather_S16384x1000_S16384x1x1_S16384x1_n_1_0_0_1_2_11.start (ix2 r u) idx 1
        + gather_S16384x1000_S16384x1x1_S16384x1_n_1_0_0_1_2_11.batchCoord (ix2 r u) 1
        + gather_S16384x1000_S16384x1x1_S16384x1_n_1_0_0_1_2_11.offCoord (ix2 r u) 1 = c.val
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16384x1000_S16384x1x1_S16384x1_n_1_0_0_1_2_11.startIndexMap from
      List.mem_singleton.mpr rfl)]
    have hsi : gather_S16384x1000_S16384x1x1_S16384x1_n_1_0_0_1_2_11.siIdx (ix2 r u)
        ⟨List.idxOf (1 : Fin 2) gather_S16384x1000_S16384x1x1_S16384x1_n_1_0_0_1_2_11.startIndexMap,
          List.idxOf_lt_length_iff.2 (List.mem_singleton.mpr rfl)⟩ = ix3 r u (0 : Fin 1) := by
      funext b; refine Fin.ext ?_
      match b with
      | ⟨0, _⟩ => rfl
      | ⟨1, _⟩ => rfl
      | ⟨2, _⟩ => rfl
    rw [hsi]
    exact hc.symm

/-! ## The picked log-probability of one row, and the mean -/

/-- The selected value at (r, u): the log-probability row r picks (NaN where its wrapped label is out of range). -/
theorem pick_read (X : SX.Idx → EReal) (L : SL.Idx → BitVec 32) (r : Fin 16384) (u : Fin 1) :
    val_main_v2 (F := Ideal) X L (ix2 r u) = refPick (fun j => X (ix2 r j)) (L (ix1 r)) := by
  rw [val_main_v2_apply, valid_read, val_main_call1_v14_apply, val_main_call1_cst_apply, Ideal.ofBits_def]
  unfold val_main_call1_v13
  rw [gather_read _ _ r u (idxOf (L (ix1 r))) (by rw [wrap_read]; rfl), logp_read]
  rfl

/-- The same as entry r of the [16384] vector, over the specification's row and label of r. -/
theorem v3_read (X : SX.Idx → EReal) (L : SL.Idx → BitVec 32) (r : Fin 16384) :
    val_main_v3 (F := Ideal) X L (ix1 r) = refPick (xrow X r.val) (lab L r.val) := by
  rw [val_main_v3_apply]
  have e : idx_main_v3 (ix1 r) = ix2 r (0 : Fin 1) := by
    funext a
    match a with
    | ⟨0, _⟩ => exact Fin.ext (Nat.div_one _)
    | ⟨1, _⟩ => rfl
  rw [e, pick_read]
  have hr : row r.val = r := Fin.ext (Nat.mod_eq_of_lt r.isLt)
  unfold xrow lab
  rw [hr]

/-- A rank-1 index is its one coordinate. -/
def idxEquiv1 {n : Nat} : (⟨1, ![n]⟩ : Shape).Idx ≃ Fin n where
  toFun j := j 0
  invFun := ix1
  left_inv j := (eq_ix1 j).symm
  right_inv _ := rfl

end RefCls

theorem ref_cls (X : SX.Idx → EReal) (L : SL.Idx → BitVec 32) :
    val_main_v6 (F := Ideal) X L = fun _ => -(Ideal.div (∑ r : Fin 16384, refPick (xrow X r.val) (lab L r.val)) cN) := by
  funext i
  rw [val_main_v6_apply, Ideal.hostNegf_def, Ideal.negf_def, val_main_v5_apply, Ideal.hostDivf_def, val_main_v4_apply,
    val_main_cst_apply, Ideal.ofBits_def, Ideal.ofBits_zero_f32, zero_add, val_main_cst_0_apply, Ideal.ofBits_def]
  have hs : ∑ j : S16384.Idx, val_main_v3 (F := Ideal) X L j
      = ∑ r : Fin 16384, refPick (xrow X r.val) (lab L r.val) := by
    refine (Fintype.sum_equiv (RefCls.idxEquiv1 (n := 16384)).symm _ _ fun r => ?_).symm
    exact (RefCls.v3_read X L r).symm
  rw [hs]
  rfl

end Cert.Loss

end
-- ==== Proof.RefCol.lean ====
/- The reference's margin term read off its run: the mean of the rows' margin terms. -/
import proofs.«403327_j23201413333226_3_alg».proof.Proof.RefRead
import proofs.«403327_j23201413333226_3_alg».proof.Proof.Spec

noncomputable section

open Idealize.ShloMosaic Idealize.ShloMosaic.ValueIdx

namespace Cert.Loss

open Cert.ReferenceIdeal Cert.ReferenceIdeal.Gen Cert.ReferenceIdeal.ReadP

/-! ## The row gather read at an index -/

/-- The gather's dimension numbers: operand [1000, 512], start indices [16384, 1], result [16384, 512]; offset axes [1],
    collapsed axes [0], start index map [0], the index vector on axis 1, slices [1, 512]. -/
abbrev gd := gather_S1000x512_S16384x1_S16384x512_1_0_n_n_0_1_1512

/-- Operand axis 0 at result index (r, d): the start index of row r, read signed and clamped into [0, 999]. -/
theorem gd_coord0 {w : Nat} (idx : IVec S16384x1 w) (r : Fin 16384) (d : Fin 512) :
    gd.start (ix2 r d) idx (0 : Fin 2) + gd.batchCoord (ix2 r d) (0 : Fin 2) + gd.offCoord (ix2 r d) (0 : Fin 2)
      = min (idx (ix2 r (0 : Fin 1))).toInt.toNat 999 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gd.startIndexMap from List.mem_singleton.mpr rfl)]
  have hsi : gd.siIdx (ix2 r d) ⟨List.idxOf (0 : Fin 2) gd.startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- Operand axis 1 at result index (r, d): the offset coordinate d. -/
theorem gd_coord1 {w : Nat} (idx : IVec S16384x1 w) (r : Fin 16384) (d : Fin 512) :
    gd.start (ix2 r d) idx (1 : Fin 2) + gd.batchCoord (ix2 r d) (1 : Fin 2) + gd.offCoord (ix2 r d) (1 : Fin 2)
      = d.val := by
  rw [GatherDims.batchCoord_eq_zero _ _ _ List.not_mem_nil]
  have hs : gd.start (ix2 r d) idx (1 : Fin 2) = 0 := by
    unfold GatherDims.start
    rw [dif_neg (show (1 : Fin 2) ∉ gd.startIndexMap from by decide)]
  rw [hs]
  simp only [Nat.add_zero, Nat.zero_add]
  have hk : (1 : Fin 2) ∈ gd.sKept := (GatherDims.mem_sKept _ _).mpr ⟨by decide, List.not_mem_nil⟩
  unfold GatherDims.offCoord
  rw [dif_pos hk]
  rfl

/-- The gather at (r, d): the operand's row at the clamped start index of row r, column d. -/
theorem gather_row_apply {α : Type} {w : Nat} (x : S1000x512.Idx → α) (idx : IVec S16384x1 w)
    (r : Fin 16384) (d : Fin 512) :
    Host.gather gd x idx (ix2 r d)
      = x (ix2 (⟨min (idx (ix2 r (0 : Fin 1))).toInt.toNat 999, by omega⟩ : Fin 1000) d) := by
  unfold Host.gather
  congr 1
  funext a
  refine Fin.ext ?_
  match a with
  | ⟨0, _⟩ => exact gd_coord0 idx r d
  | ⟨1, _⟩ => exact gd_coord1 idx r d

/-! ## One row -/

/-- The wrapped label of row r. -/
theorem v11_at (L : SL.Idx → BitVec 32) (r : Fin 16384) :
    val_main_v11 (F := Ideal) L (ix1 r) = wrapL (L (ix1 r)) := by
  rw [val_main_v11_apply, val_main_v8_apply, val_main_v10_apply, val_main_v7_apply, val_main_v9_apply,
    val_main_c_apply, val_main_c_1_apply]
  rfl

/-- Its column form. -/
theorem v12_at (L : SL.Idx → BitVec 32) (r : Fin 16384) :
    val_main_v12 (F := Ideal) L (ix2 r (0 : Fin 1)) = wrapL (L (ix1 r)) := by
  rw [val_main_v12_apply]
  have h : idx_main_v12 (ix2 r (0 : Fin 1)) = ix1 r :=
    funext fun a => Fin.ext (by match a with | ⟨0, _⟩ => rfl)
  rw [h]
  exact v11_at L r

/-- The gathered class-mean row of row r, entry d. -/
theorem v13_at (Mu : SM.Idx → EReal) (L : SL.Idx → BitVec 32) (r : Fin 16384) (d : Fin 512) :
    val_main_v13 (F := Ideal) Mu L (ix2 r d) = Mu (ix2 (idxOf (L (ix1 r))) d) := by
  unfold val_main_v13
  refine (gather_row_apply Mu (val_main_v12 (F := Ideal) L) r d).trans ?_
  refine congrArg (fun k => Mu (ix2 k d)) (Fin.ext ?_)
  show min (val_main_v12 (F := Ideal) L (ix2 r (0 : Fin 1))).toInt.toNat 999 = _
  rw [v12_at]
  rfl

/-- The margin term of row r. -/
theorem v19_at (Fe : SF.Idx → EReal) (Mu : SM.Idx → EReal) (L : SL.Idx → BitVec 32) (r : Fin 16384) :
    val_main_v19 (F := Ideal) Fe Mu L (ix1 r) = refCol (frow Fe r.val) Mu (lab L r.val) := by
  have hrow : row r.val = r := Fin.ext (Nat.mod_eq_of_lt r.isLt)
  have hsum : ∀ k : Fin 512, val_main_call2_v0 (F := Ideal) Fe Mu L (idx_main_call2_v1 (ix1 r) k)
      = (Fe (ix2 r k) - Mu (ix2 (idxOf (L (ix1 r))) k)) * (Fe (ix2 r k) - Mu (ix2 (idxOf (L (ix1 r))) k)) := by
    intro k
    have hi : idx_main_call2_v1 (ix1 r) k = ix2 r k :=
      funext fun a => Fin.ext (by match a with | ⟨0, _⟩ => rfl | ⟨1, _⟩ => rfl)
    rw [hi, val_main_call2_v0_apply, val_main_v14_apply, v13_at]
    rfl
  rw [val_main_v19_apply, val_main_v17_apply, val_main_v18_apply, val_main_v16_apply, val_main_v15_apply,
    val_main_call2_v1_apply, val_main_cst_3_apply, val_main_cst_2_apply, val_main_call2_cst_apply]
  simp only [hsum, Ideal.maximumf_def, Ideal.subf_def, Ideal.hostUnary_sqrt_def, Ideal.ofBits_def,
    Ideal.ofBits_zero_f32, zero_add]
  unfold refCol frow lab
  rw [hrow]
  rfl

/-! ## The mean over the rows -/

/-- An index of the one-axis shape [16384] is its coordinate. -/
def idxEquiv1 : S16384.Idx ≃ Fin 16384 where
  toFun j := j 0
  invFun r := ix1 r
  left_inv j := (eq_ix1 j).symm
  right_inv r := rfl

theorem ref_col (Fe : SF.Idx → EReal) (Mu : SM.Idx → EReal) (L : SL.Idx → BitVec 32) :
    val_main_v21 (F := Ideal) Fe Mu L = fun _ => Ideal.div (∑ r : Fin 16384, refCol (frow Fe r.val) Mu (lab L r.val)) cN := by
  funext i
  have hs : ∑ j : S16384.Idx, val_main_v19 (F := Ideal) Fe Mu L j
      = ∑ r : Fin 16384, refCol (frow Fe r.val) Mu (lab L r.val) := by
    rw [← Equiv.sum_comp idxEquiv1.symm (val_main_v19 (F := Ideal) Fe Mu L)]
    exact Finset.sum_congr rfl fun r _ => v19_at Fe Mu L r
  rw [val_main_v21_apply, val_main_v20_apply, val_main_cst_4_apply, val_main_cst_5_apply, hs]
  simp only [Ideal.hostDivf_def, Ideal.ofBits_def, Ideal.ofBits_zero_f32, zero_add]
  rfl

end Cert.Loss

end
-- ==== Proof.RefValue.lean ====
/- The reference's run read to its result: its one output is the loss in the reference's shape, a function of the four
   argument arrays; the arguments end unchanged. -/
import proofs.«403327_j23201413333226_3_alg».proof.Proof.RefRun
import proofs.«403327_j23201413333226_3_alg».proof.Proof.RefRead
import proofs.«403327_j23201413333226_3_alg».proof.Proof.RefCls
import proofs.«403327_j23201413333226_3_alg».proof.Proof.RefCol
import proofs.«403327_j23201413333226_3_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ReadP Cert.Loss

/-- The result's term is the last stage of the stage-by-stage restatement. -/
theorem res_eq (m : (ℓ : Loc nD τ sig) → Buf (Elt Ideal) ℓ) (c : Dev nD) :
    Cert.ReferenceIdeal.ValueP.res_main_v24 m c
      = val_main_v24 (F := Ideal) (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.ValueP.res_main_v24; rfl

/-- The last stage is the weighted sum of the two means. -/
theorem stage_eq (X : SX.Idx → EReal) (Fe : SF.Idx → EReal) (Mu : SM.Idx → EReal) (L : SL.Idx → BitVec 32) :
    val_main_v24 (F := Ideal) X Fe Mu L = fun _ => refLoss X Fe Mu L := by
  funext i
  rw [val_main_v24_apply, val_main_v22_apply, val_main_v23_apply, val_main_cst_6_apply, val_main_cst_7_apply,
    ref_cls X L, ref_col Fe Mu L]
  rfl

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24)
          = (fun _ => refLoss (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((res_eq m c).trans (stage_eq _ _ _ _)), (h c).2⟩)
    (Cert.ReferenceIdeal.ValueP.run (F := Ideal) m ρ)

end Cert.ReferenceIdeal.RefValue

end
-- ==== Proof.LibSoftmaxReal.lean ====
/-
  Real-number and extended-real facts both sides of the comparison use: coercions pushed through finite sums,
  quotients and the exponential; positivity of a sum of exponentials; the shift invariance of a softmax-weighted
  average; a sum over 32768 keys regrouped as 32 tiles of 1024; the maximum of finitely many reals is a real.
-/
import Idealize.ShloMosaic.PureOps.Ideal
import Mathlib.Analysis.SpecialFunctions.Exp
import Mathlib.Algebra.BigOperators.Fin
import Mathlib.Data.EReal.Basic

noncomputable section

namespace Cert.RealLemmas

open Idealize.ShloMosaic

/-- Over any finite set, the coercion of a real sum is the sum of the coercions: the empty sum is zero on both
    sides, and inserting one more key adds one more term, the coercion being additive. -/
theorem coe_sum_finset {K : Type} (S : Finset K) (f : K → ℝ) :
    (((∑ k ∈ S, f k) : ℝ) : EReal) = ∑ k ∈ S, ((f k : ℝ) : EReal) := by
  classical
  refine Finset.induction_on S ?_ ?_
  · rw [Finset.sum_empty, Finset.sum_empty, EReal.coe_zero]
  · intro a s ha ih
    rw [Finset.sum_insert ha, Finset.sum_insert ha, EReal.coe_add, ih]

/-- The coercion of a finite real sum is the sum of the coercions. -/
theorem coe_sum {K : Type} [Fintype K] (f : K → ℝ) : (((∑ k, f k) : ℝ) : EReal) = ∑ k, ((f k : ℝ) : EReal) :=
  coe_sum_finset Finset.univ f

/-- The ideal quotient of two reals with a nonzero divisor is the real quotient. -/
theorem div_coe (x y : ℝ) (hy : y ≠ 0) : Ideal.div (x : EReal) (y : EReal) = (((x / y) : ℝ) : EReal) := by
  rw [Ideal.div_coe hy, ← EReal.coe_mul, mul_one_div]

/-- The ideal exponential of a real is the real exponential. -/
theorem exp_coe (x : ℝ) : Ideal.exp (x : EReal) = ((Real.exp x : ℝ) : EReal) := rfl

/-- A nonempty finite sum of exponentials is positive. -/
theorem sum_exp_pos {K : Type} [Fintype K] [Nonempty K] (f : K → ℝ) : 0 < ∑ k, Real.exp (f k) :=
  Finset.sum_pos (fun k _ => Real.exp_pos (f k)) Finset.univ_nonempty

/-- Shift invariance: weights `exp (s k - M)` normalised by their sum average `v` exactly as the unshifted
    weights `exp (s k)` do, the common factor `exp (-M)` cancelling. -/
theorem softmax_shift {K : Type} [Fintype K] [Nonempty K] (s v : K → ℝ) (M : ℝ) :
    ∑ k, (Real.exp (s k - M) / ∑ j, Real.exp (s j - M)) * v k
      = (∑ k, Real.exp (s k) * v k) / ∑ k, Real.exp (s k) := by
  -- every shifted weight is the unshifted one times the common positive factor `exp (-M)`
  have hc : Real.exp (-M) ≠ 0 := (Real.exp_pos (-M)).ne'
  have hshift : ∀ k, Real.exp (s k - M) = Real.exp (s k) * Real.exp (-M) := fun k => by
    rw [sub_eq_add_neg, Real.exp_add]
  -- so the shifted normaliser is the unshifted one times the same factor
  have hden : ∑ j, Real.exp (s j - M) = (∑ j, Real.exp (s j)) * Real.exp (-M) := by
    rw [Finset.sum_mul]
    exact Finset.sum_congr rfl (fun j _ => hshift j)
  -- the factor cancels in each term, and the common denominator comes out of the sum
  rw [hden, Finset.sum_div]
  refine Finset.sum_congr rfl (fun k _ => ?_)
  rw [hshift k, mul_div_mul_right _ _ hc, div_mul_eq_mul_div]

/-- A sum over 32768 keys, taken tile by tile: 32 tiles of 1024 consecutive keys. -/
theorem sum_tiles (f : Fin 32768 → ℝ) :
    ∑ t : Fin 32, ∑ r : Fin 1024, f ⟨t.val * 1024 + r.val, by omega⟩ = ∑ k : Fin 32768, f k := by
  -- the double sum is a single sum over pairs (tile, offset) ...
  refine (Fintype.sum_prod_type'
    (fun (t : Fin 32) (r : Fin 1024) => f ⟨t.val * 1024 + r.val, by omega⟩)).symm.trans ?_
  -- ... and pairs correspond one to one to keys, the pair (t, r) to the key r + 1024 * t
  refine Fintype.sum_equiv (finProdFinEquiv : Fin 32 × Fin 1024 ≃ Fin (32 * 1024)) _ _ ?_
  rintro ⟨t, r⟩
  refine congrArg f (Fin.ext ?_)
  show t.val * 1024 + r.val = r.val + 1024 * t.val
  omega

/-- The running maximum from `⊥` over any finite family of reals is `⊥` or a real: it is `⊥` over the empty
    family, and one more real `x` turns `⊥` into `x` and a real `M` into the larger of `x` and `M`. -/
theorem fold_max_bot_or_coe {K : Type} (S : Finset K) (g : K → ℝ) :
    S.fold max (⊥ : EReal) (fun k => ((g k : ℝ) : EReal)) = ⊥
      ∨ ∃ M : ℝ, S.fold max (⊥ : EReal) (fun k => ((g k : ℝ) : EReal)) = (M : EReal) := by
  classical
  refine Finset.induction_on S ?_ ?_
  · exact Or.inl Finset.fold_empty
  · intro a s ha ih
    refine Or.inr ?_
    rw [Finset.fold_insert ha]
    rcases ih with h | ⟨M, h⟩
    · exact ⟨g a, by rw [h]; exact max_eq_left bot_le⟩
    · rcases le_total ((g a : ℝ) : EReal) (M : EReal) with hle | hle
      · exact ⟨M, by rw [h]; exact max_eq_right hle⟩
      · exact ⟨g a, by rw [h]; exact max_eq_left hle⟩

/-- Over a family with at least one member the running maximum is a real: split off one member `a`; the
    maximum over the rest is `⊥` or a real, and the larger of the real `g a` and either is a real. -/
theorem fold_max_insert_coe {K : Type} [DecidableEq K] (a : K) (s : Finset K) (ha : a ∉ s) (g : K → ℝ) :
    ∃ M : ℝ, (insert a s).fold max (⊥ : EReal) (fun k => ((g k : ℝ) : EReal)) = (M : EReal) := by
  rw [Finset.fold_insert ha]
  rcases fold_max_bot_or_coe s g with h | ⟨M, h⟩
  · exact ⟨g a, by rw [h]; exact max_eq_left bot_le⟩
  · rcases le_total ((g a : ℝ) : EReal) (M : EReal) with hle | hle
    · exact ⟨M, by rw [h]; exact max_eq_right hle⟩
    · exact ⟨g a, by rw [h]; exact max_eq_left hle⟩

/-- The running maximum from `⊥` over a nonempty finite family of reals is a real. -/
theorem fold_max_coe {n : ℕ} (f : Fin (n + 1) → ℝ) :
    ∃ M : ℝ, (Finset.univ : Finset (Fin (n + 1))).fold max (⊥ : EReal) (fun k => ((f k : ℝ) : EReal)) = (M : EReal) := by
  -- the whole index set is the index 0 together with the rest
  have huniv : (Finset.univ : Finset (Fin (n + 1))) = insert 0 (Finset.univ.erase 0) :=
    (Finset.insert_erase (Finset.mem_univ 0)).symm
  rw [huniv]
  exact fold_max_insert_coe 0 (Finset.univ.erase 0) (Finset.notMem_erase 0 Finset.univ) f

end Cert.RealLemmas

end
-- ==== Proof.AlgebraCls.lean ====
/- One row of the cross-entropy term: on finite logits and a label in range the kernel's form and the reference's are a real number and its negative. -/
import proofs.«403327_j23201413333226_3_alg».proof.Proof.Spec
import proofs.«403327_j23201413333226_3_alg».proof.Proof.LibSoftmaxReal
import Mathlib.Analysis.SpecialFunctions.Log.Basic

noncomputable section

open Idealize.ShloMosaic Idealize.ShloMosaic.ValueIdx

namespace Cert.Loss

/-- A label whose signed value lies in [0, 1000) has that value as its unsigned value too. -/
theorem toNat_of_range (l : BitVec 32) (hl : 0 ≤ l.toInt ∧ l.toInt < 1000) :
    (l.toNat : Int) = l.toInt ∧ l.toNat < 1000 := by
  have hlt := l.isLt
  rw [BitVec.toInt_eq_toNat_cond] at hl
  rw [BitVec.toInt_eq_toNat_cond]
  split_ifs at hl ⊢ with h
  · omega
  · omega

/-- Clipping a label already in [0, 999] into [0, 999] changes nothing: it is not below 0, so the larger of 0 and
    it is itself, and 999 is not below it, so the smaller of 999 and it is itself. -/
theorem clip_id (l : BitVec 32) (hl : 0 ≤ l.toInt ∧ l.toInt < 1000) :
    IntOp.minsi 999#32 (IntOp.maxsi 0#32 l) = l := by
  have h0 : (0#32 : BitVec 32).toInt = 0 := by decide
  have h999 : (999#32 : BitVec 32).toInt = 999 := by decide
  have h1 : IntOp.maxsi 0#32 l = l := by
    unfold IntOp.maxsi
    rw [if_neg]
    rw [BitVec.slt, h0, decide_eq_true_eq]
    omega
  rw [h1]
  unfold IntOp.minsi
  rw [if_neg]
  rw [BitVec.slt, h999, decide_eq_true_eq]
  omega

/-- A label that is not negative is not wrapped. -/
theorem wrapL_id (l : BitVec 32) (hl : 0 ≤ l.toInt ∧ l.toInt < 1000) : wrapL l = l := by
  have h0 : (0#32 : BitVec 32).toInt = 0 := by decide
  have hs : l.slt 0#32 = false := by
    rw [BitVec.slt, h0, decide_eq_false_iff_not]
    omega
  unfold wrapL IntOp.cmpi Scalar.select
  simp only [hs]
  rw [if_neg (by decide)]

/-- A label in [0, 999] is in range. -/
theorem validL_one (l : BitVec 32) (hl : 0 ≤ l.toInt ∧ l.toInt < 1000) : validL l = 1#1 := by
  have h0 : (0#32 : BitVec 32).toInt = 0 := by decide
  have h999 : (999#32 : BitVec 32).toInt = 999 := by decide
  have hs1 : (0#32 : BitVec 32).sle l = true := by
    rw [BitVec.sle, h0, decide_eq_true_eq]
    exact hl.1
  have hs2 : l.sle 999#32 = true := by
    rw [BitVec.sle, h999, decide_eq_true_eq]
    omega
  unfold validL
  rw [wrapL_id l hl]
  unfold IntOp.cmpi IntOp.andi
  simp only [hs1, hs2]
  decide

/-- The class read for a label in [0, 999] is the label. -/
theorem idxOf_eq (l : BitVec 32) (hl : 0 ≤ l.toInt ∧ l.toInt < 1000) :
    idxOf l = ⟨l.toNat, (toNat_of_range l hl).2⟩ := by
  obtain ⟨h1, h2⟩ := toNat_of_range l hl
  refine Fin.ext ?_
  show min (wrapL l).toInt.toNat 999 = l.toNat
  rw [wrapL_id l hl]
  omega

/-- The masked sum over the classes picks the logit of the label's class: every other class contributes zero,
    since a class number below 1000 is the label exactly when it is the label's unsigned value. -/
theorem masked_sum (x : Fin 1000 → EReal) (l : BitVec 32) (hlt : l.toNat < 1000) :
    ∑ j : Fin 1000, (if BitVec.ofNat 32 j.val = l then x j else 0) = x ⟨l.toNat, hlt⟩ := by
  rw [Finset.sum_eq_single (⟨l.toNat, hlt⟩ : Fin 1000)]
  · rw [if_pos]
    refine BitVec.eq_of_toNat_eq ?_
    rw [BitVec.toNat_ofNat]
    show l.toNat % 2 ^ 32 = l.toNat
    omega
  · intro j _ hj
    rw [if_neg]
    intro h
    apply hj
    refine Fin.ext ?_
    have h' := congrArg BitVec.toNat h
    rw [BitVec.toNat_ofNat] at h'
    have := j.isLt
    show j.val = l.toNat
    omega
  · intro h
    exact absurd (Finset.mem_univ _) h

theorem nll_row (x : Fin 1000 → EReal) (hx : ∀ j, ∃ r : ℝ, x j = (r : EReal)) (l : BitVec 32)
    (hl : 0 ≤ l.toInt ∧ l.toInt < 1000) :
    ∃ a : ℝ, nllK x (IntOp.minsi 999#32 (IntOp.maxsi 0#32 l)) = (a : EReal) ∧ refPick x l = ((-a : ℝ) : EReal) := by
  classical
  -- real witnesses for the logits, and the row maximum as a real
  choose f hf using hx
  have hxf : x = fun j => ((f j : ℝ) : EReal) := funext hf
  obtain ⟨M, hM⟩ := Cert.RealLemmas.fold_max_coe (n := 999) f
  have hrm : rowMax x = (M : EReal) := by
    rw [hxf]
    exact hM
  -- the shifted exponentials sum to a positive real S
  have hS : 0 < ∑ j : Fin 1000, Real.exp (f j - M) :=
    Cert.RealLemmas.sum_exp_pos (fun j : Fin 1000 => f j - M)
  have hterm : ∀ j, Ideal.exp (x j - rowMax x) = ((Real.exp (f j - M) : ℝ) : EReal) := fun j => by
    rw [hrm, hf j, ← EReal.coe_sub]
    rfl
  have hsum : ∑ j : Fin 1000, Ideal.exp (x j - rowMax x) = ((∑ j : Fin 1000, Real.exp (f j - M) : ℝ) : EReal) := by
    rw [Cert.RealLemmas.coe_sum]
    exact Finset.sum_congr rfl (fun j _ => hterm j)
  -- its logarithm is the real logarithm
  have hlog : Ideal.log (∑ j : Fin 1000, Ideal.exp (x j - rowMax x))
      = ((Real.log (∑ j : Fin 1000, Real.exp (f j - M)) : ℝ) : EReal) := by
    rw [hsum, Ideal.log_coe, if_neg (not_le.mpr hS)]
  obtain ⟨hnat, hlt⟩ := toNat_of_range l hl
  refine ⟨Real.log (∑ j : Fin 1000, Real.exp (f j - M)) + M - f ⟨l.toNat, hlt⟩, ?_, ?_⟩
  · -- the kernel's form: log-sum-exp plus the maximum, minus the picked logit
    rw [clip_id l hl]
    unfold nllK
    rw [masked_sum x l hlt, hlog, hrm, hf ⟨l.toNat, hlt⟩, ← EReal.coe_add, ← EReal.coe_sub]
  · -- the reference's form: the label is in range and unwrapped, and the log-softmax entry is the negative
    unfold refPick
    rw [validL_one l hl, idxOf_eq l hl]
    unfold Scalar.select
    rw [if_pos (by decide : (1#1 : BitVec 1) = 1)]
    unfold logp
    rw [hlog, hrm, hf ⟨l.toNat, hlt⟩, ← EReal.coe_sub, ← EReal.coe_sub]
    refine congrArg (fun r : ℝ => (r : EReal)) ?_
    ring

end Cert.Loss

end
-- ==== Proof.Algebra.lean ====
/- The two shapes of the loss are one function on finite inputs with labels in range. -/
import proofs.«403327_j23201413333226_3_alg».proof.Proof.Spec
import proofs.«403327_j23201413333226_3_alg».proof.Proof.AlgebraCls
import proofs.«403327_j23201413333226_3_alg».proof.Proof.LibSoftmaxReal
import Mathlib.Algebra.BigOperators.Fin

noncomputable section

open Idealize.ShloMosaic Idealize.ShloMosaic.ValueIdx

namespace Cert.Loss

/-! ## Regrouping the rows -/

/-- A sum over `m * n` consecutive naturals, taken as `m` blocks of `n`: no block gives the empty sum, and one more
    block appends the next `n` terms. -/
theorem sum_range_mul {M : Type} [AddCommMonoid M] (g : ℕ → M) (n : ℕ) : ∀ m : ℕ,
    ∑ k ∈ Finset.range m, ∑ i ∈ Finset.range n, g (k * n + i) = ∑ r ∈ Finset.range (m * n), g r
  | 0 => by rw [Finset.sum_range_zero, Nat.zero_mul, Finset.sum_range_zero]
  | m + 1 => by
    rw [Finset.sum_range_succ, sum_range_mul g n m, Nat.succ_mul, Finset.sum_range_add]

/-- Two cores of eight tiles of 1024 rows each cover the 16384 rows once: the first core's tiles are the rows
    below 8192 and the second core's are the rows from 8192 on. -/
theorem sum_regroup {M : Type} [AddCommMonoid M] (g : ℕ → M) :
    (∑ k ∈ Finset.range 8, ∑ i : Fin 1024, g ((8 * 0 + k) * 1024 + i.val))
      + (∑ k ∈ Finset.range 8, ∑ i : Fin 1024, g ((8 * 1 + k) * 1024 + i.val))
    = ∑ r : Fin 16384, g r.val := by
  -- the first core: rows 0 … 8191
  have h0 : ∑ k ∈ Finset.range 8, ∑ i : Fin 1024, g ((8 * 0 + k) * 1024 + i.val)
      = ∑ r ∈ Finset.range (8 * 1024), g r := by
    rw [← sum_range_mul g 1024 8]
    refine Finset.sum_congr rfl (fun k _ => ?_)
    rw [Nat.mul_zero, Nat.zero_add]
    exact Fin.sum_univ_eq_sum_range (fun i => g (k * 1024 + i)) 1024
  -- the second core: rows 8192 + 0 … 8192 + 8191
  have h1 : ∑ k ∈ Finset.range 8, ∑ i : Fin 1024, g ((8 * 1 + k) * 1024 + i.val)
      = ∑ r ∈ Finset.range (8 * 1024), g (8 * 1024 + r) := by
    rw [← sum_range_mul (fun r => g (8 * 1024 + r)) 1024 8]
    refine Finset.sum_congr rfl (fun k _ => ?_)
    refine (Fin.sum_univ_eq_sum_range (fun i => g ((8 * 1 + k) * 1024 + i)) 1024).trans ?_
    refine Finset.sum_congr rfl (fun i _ => ?_)
    refine congrArg g ?_
    omega
  -- together: rows 0 … 16383
  rw [h0, h1, ← Finset.sum_range_add g (8 * 1024) (8 * 1024)]
  exact (Fin.sum_univ_eq_sum_range g 16384).symm

/-! ## A label in range -/

/-- A label whose signed value lies in [0, 999] is unchanged by the clip into that interval, is not wrapped, and
    names the class whose number is its unsigned value. -/
theorem label_facts (l : BitVec 32) (hl : 0 ≤ l.toInt ∧ l.toInt < 1000) :
    IntOp.minsi 999#32 (IntOp.maxsi 0#32 l) = l ∧ (idxOf l).val = l.toNat ∧ l.toNat < 1000 := by
  have h0 : (0#32).toInt = 0 := by decide
  have h999 : (999#32).toInt = 999 := by decide
  -- a nonnegative signed value is the unsigned value
  have hnat : l.toInt = (l.toNat : Int) := by
    have := BitVec.toInt_eq_toNat_cond l
    have hlt := l.isLt
    split at this <;> omega
  -- the larger of 0 and l is l
  have hmax : IntOp.maxsi 0#32 l = l := by
    unfold IntOp.maxsi
    rw [if_neg]
    rw [BitVec.slt_iff_toInt_lt, h0]; omega
  -- the smaller of 999 and l is l
  have hmin : IntOp.minsi 999#32 l = l := by
    unfold IntOp.minsi
    rw [if_neg]
    rw [BitVec.slt_iff_toInt_lt, h999]; omega
  -- l is not negative, so it is not wrapped
  have hwrap : wrapL l = l := by
    unfold wrapL IntOp.cmpi
    have : l.slt 0#32 = false := by
      rw [BitVec.slt_eq_decide, h0]; exact decide_eq_false (by omega)
    simp only [this]
    rfl
  refine ⟨by rw [hmax, hmin], ?_, by omega⟩
  unfold idxOf
  simp only [hwrap, hnat, Int.toNat_natCast]
  omega

/-! ## The margin term of one row -/

/-- The one-hot sum over the classes picks the class-mean row of an in-range label: the one class whose number is
    the label contributes `1 * Mu`, every other class contributes `0 * Mu = 0`. -/
theorem gathK_eq (Mu : SM.Idx → EReal) (l : BitVec 32) (hl : 0 ≤ l.toInt ∧ l.toInt < 1000) (d : Fin 512) :
    gathK Mu l d = Mu (ix2 (idxOf l) d) := by
  obtain ⟨_, hidx, hlt⟩ := label_facts l hl
  unfold gathK
  rw [Finset.sum_eq_single (idxOf l)]
  · rw [if_pos, one_mul]
    rw [hidx]
    refine BitVec.eq_of_toNat_eq ?_
    rw [BitVec.toNat_ofNat]
    have := l.isLt
    omega
  · intro k _ hk
    rw [if_neg, zero_mul]
    intro h
    refine hk (Fin.ext ?_)
    rw [hidx, ← h, BitVec.toNat_ofNat]
    have := k.isLt
    omega
  · intro h
    exact absurd (Finset.mem_univ _) h

/-- On an in-range label the kernel's margin term (clipped label, one-hot pick) is the reference's (clamped
    gather). -/
theorem colK_eq (f : Fin 512 → EReal) (Mu : SM.Idx → EReal) (l : BitVec 32) (hl : 0 ≤ l.toInt ∧ l.toInt < 1000) :
    colK f Mu (IntOp.minsi 999#32 (IntOp.maxsi 0#32 l)) = refCol f Mu l := by
  rw [(label_facts l hl).1]
  unfold colK refCol
  have hs : ∑ d : Fin 512, (f d - gathK Mu l d) * (f d - gathK Mu l d)
      = ∑ d : Fin 512, (f d - Mu (ix2 (idxOf l) d)) * (f d - Mu (ix2 (idxOf l) d)) :=
    Finset.sum_congr rfl (fun d _ => by rw [gathK_eq Mu l hl d])
  rw [hs]

/-! ## The batch size -/

/-- The word `0x46800000` denotes `2 ^ 14 = 16384`. -/
theorem cN_eq : cN = ((16384 : ℝ) : EReal) := by
  unfold cN
  simp [Ideal.ofBits, Ideal.ieee, -EReal.coe_mul]; norm_num

/-! ## The two shapes agree -/

theorem kernelLoss_eq_refLoss (X : SX.Idx → EReal) (Fe : SF.Idx → EReal) (Mu : SM.Idx → EReal) (L : SL.Idx → BitVec 32)
    (hX : ∀ i, ∃ r : ℝ, X i = (r : EReal)) (hL : ∀ i, 0 ≤ (L i).toInt ∧ (L i).toInt < 1000) :
    kernelLoss X Fe Mu L = refLoss X Fe Mu L := by
  -- the clipped label of a row is the clip of its label
  have hlab : ∀ r : ℕ, lab (clipL L) r = IntOp.minsi 999#32 (IntOp.maxsi 0#32 (lab L r)) := fun r => rfl
  -- the two cores' partial sums are one sum over all rows
  have hcls : coreCls X (clipL L) 0 + coreCls X (clipL L) 1
      = ∑ r : Fin 16384, nllK (xrow X r.val) (lab (clipL L) r.val) :=
    sum_regroup (fun r => nllK (xrow X r) (lab (clipL L) r))
  have hcol : coreCol Fe Mu (clipL L) 0 + coreCol Fe Mu (clipL L) 1
      = ∑ r : Fin 16384, colK (frow Fe r.val) Mu (lab (clipL L) r.val) :=
    sum_regroup (fun r => colK (frow Fe r) Mu (lab (clipL L) r))
  -- the margin term agrees row by row
  have hcol' : coreCol Fe Mu (clipL L) 0 + coreCol Fe Mu (clipL L) 1
      = ∑ r : Fin 16384, refCol (frow Fe r.val) Mu (lab L r.val) := by
    rw [hcol]
    refine Finset.sum_congr rfl (fun r _ => ?_)
    rw [hlab]
    exact colK_eq _ Mu _ (hL _)
  -- the cross-entropy term: each row's kernel form is a real `a r` and its reference form is `-a r`
  choose a ha1 ha2 using fun r : Fin 16384 =>
    nll_row (xrow X r.val) (fun j => hX _) (lab L r.val) (hL _)
  have hcls' : coreCls X (clipL L) 0 + coreCls X (clipL L) 1 = (((∑ r : Fin 16384, a r) : ℝ) : EReal) := by
    rw [hcls, Cert.RealLemmas.coe_sum]
    refine Finset.sum_congr rfl (fun r _ => ?_)
    rw [hlab]
    exact ha1 r
  have hpick : ∑ r : Fin 16384, refPick (xrow X r.val) (lab L r.val) = (((∑ r : Fin 16384, -a r) : ℝ) : EReal) := by
    rw [Cert.RealLemmas.coe_sum]
    exact Finset.sum_congr rfl (fun r _ => ha2 r)
  -- both means are real quotients by 16384, and -((∑ -a) / 16384) = (∑ a) / 16384
  have h16 : (16384 : ℝ) ≠ 0 := by norm_num
  have hfirst : Ideal.div (coreCls X (clipL L) 0 + coreCls X (clipL L) 1) cN
      = -(Ideal.div (∑ r : Fin 16384, refPick (xrow X r.val) (lab L r.val)) cN) := by
    rw [hcls', hpick, cN_eq, Cert.RealLemmas.div_coe _ _ h16, Cert.RealLemmas.div_coe _ _ h16, ← EReal.coe_neg]
    refine congrArg _ ?_
    rw [Finset.sum_neg_distrib, neg_div, neg_neg]
  unfold kernelLoss refLoss
  rw [hfirst, hcol']

end Cert.Loss

end
-- ==== Proof.PreDecode.lean ====
/- What the precondition says of the four argument arrays: every float entry is a real number, every label lies in [0, 1000). -/
import proofs.«403327_j23201413333226_3_alg».proof.Pre_finite_inputs
import proofs.«403327_j23201413333226_3_alg».proof.Proof.Spec
import proofs.«403327_j23201413333226_3_alg».proof.Proof.LibExtrema
import Idealize.ShloMosaic.Lib.ReduceAll
import Idealize.ShloMosaic.Lib.StableHlo.Predicate

noncomputable section

open Idealize.ShloMosaic Idealize.ShloMosaic.ValueIdx

namespace Cert.Loss

/-- An extended real that is neither infinity is a real number. -/
theorem exists_real_of_abs_lt_inf (x : EReal)
    (h : Ideal.cmp .olt (max x (-x)) (Ideal.ofBits .f32 0x7F800000#32) = 1#1) : ∃ r : ℝ, x = (r : EReal) := by
  have hx := Cert.LibExtrema.real_of_abs_lt_inf x h
  exact ⟨x.toReal, (EReal.coe_toReal hx.1 hx.2).symm⟩

theorem pre_decode [Cert.Pre_finite_inputs.Facts] (X : SX.Idx → EReal) (Fe : SF.Idx → EReal) (Mu : SM.Idx → EReal) (L : SL.Idx → BitVec 32)
    (h : Cert.Pre_finite_inputs.fn (F := Ideal) X Fe Mu L = fun _ => 1#1) :
    (∀ i, ∃ r : ℝ, X i = (r : EReal)) ∧ (∀ i, ∃ r : ℝ, Fe i = (r : EReal)) ∧ (∀ i, ∃ r : ℝ, Mu i = (r : EReal))
      ∧ (∀ i, 0 ≤ (L i).toInt ∧ (L i).toInt < 1000) := by
  have h0 := congrFun h ValueIdx.ix0
  dsimp only [Cert.Pre_finite_inputs.fn, Cert.Pre_finite_inputs.fn_part1] at h0
  obtain ⟨h123, hL⟩ := IntOp.andi_eq_one.1 h0
  obtain ⟨h12, hMu⟩ := IntOp.andi_eq_one.1 h123
  obtain ⟨hX, hFe⟩ := IntOp.andi_eq_one.1 h12
  refine ⟨fun i => ?_, fun i => ?_, fun i => ?_, fun i => ?_⟩
  · exact exists_real_of_abs_lt_inf (X i) (Host.reduce_andi_all _ _ _ _ _ hX i)
  · exact exists_real_of_abs_lt_inf (Fe i) (Host.reduce_andi_all _ _ _ _ _ hFe i)
  · exact exists_real_of_abs_lt_inf (Mu i) (Host.reduce_andi_all _ _ _ _ _ hMu i)
  · have hi := Host.reduce_andi_all _ _ _ _ _ hL i
    obtain ⟨hge, hlt⟩ := IntOp.andi_eq_one.1 hi
    have h1 := IntOp.cmpi_sge.1 hge
    have h2 := IntOp.cmpi_slt.1 hlt
    exact ⟨h1, h2⟩

end Cert.Loss

end
-- ==== Proof.lean ====
/-
  A batch loss — the mean over 16384 rows of the softmax cross-entropy of the row's logits at its label, plus 0.1 times the mean
  of max(5 − ‖f_r − μ_label‖, 0) over the rows' features and the label's class mean — computed by a tiled kernel and by a plain
  reference, shown equal over the extended reals on finite inputs whose labels lie in [0, 1000).

  The kernel walks sixteen tiles of 1024 rows, eight per core, keeping two running sums per core; at a core's last tile it
  writes the two sums into its block of a small output array, and the host adds the cores' sums, divides by the batch size and
  weighs the two terms. Per row it takes the log-sum-exp shifted by the row maximum and picks the label's logit by a masked sum,
  and it picks the label's class mean by a one-hot product with the table of class means (a change of number format is the
  identity here). Its labels are clipped into [0, 999] first, which changes nothing for labels in range.
  The reference takes the log-softmax, picks the label's entry by a clamped gather (a negative label counts from the end, an
  out-of-range one yields no number: both excluded by the labels' range), gathers the class means the same way, and averages.

  Row by row the two cross-entropy terms are a real number and its negative (the reference negates its mean), the two margin terms
  are the same extended real, and a sum over the rows may be grouped by core and tile: so the two results are one function of the
  arguments. The three frames: the two kernel programs' are the generated ones; the reference's is its run with the result dropped.
-/
import proofs.«403327_j23201413333226_3_alg».proof.Defs
import proofs.«403327_j23201413333226_3_alg».proof.Proof.Gen.Kernel
import proofs.«403327_j23201413333226_3_alg».proof.Proof.Gen.Kernel.Frame
import proofs.«403327_j23201413333226_3_alg».proof.Proof.Gen.KernelIdeal
import proofs.«403327_j23201413333226_3_alg».proof.Proof.Gen.KernelIdeal.Frame
import proofs.«403327_j23201413333226_3_alg».proof.Proof.Gen.ReferenceIdeal
import proofs.«403327_j23201413333226_3_alg».proof.Proof.Gen.Pre_finite_inputs
import proofs.«403327_j23201413333226_3_alg».proof.Proof.Final
import proofs.«403327_j23201413333226_3_alg».proof.Proof.RefValue
import proofs.«403327_j23201413333226_3_alg».proof.Proof.Algebra
import proofs.«403327_j23201413333226_3_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end with the loss of the same four arrays, in two shapes that agree on finite inputs with labels in range. -/
theorem algebraic : Cert.algebraic_KernelIdeal_ReferenceIdeal := by
  intro m ρ m' ρ' hpre hagree
  refine ⟨fun c => (fun _ => Cert.Loss.kernelLoss (Cert.KernelIdeal.Accum.aX m c) (Cert.KernelIdeal.Accum.aF m c)
      (Cert.KernelIdeal.Accum.aM m c) (Cert.KernelIdeal.Accum.aL m c)), Cert.KernelIdeal.Final.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  obtain ⟨hX, _, _, hL⟩ := Cert.Loss.pre_decode _ _ _ _ (hpre c)
  funext _
  exact (Cert.Loss.kernelLoss_eq_refLoss _ _ _ _ hX hL).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
